-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64 : Shape := ⟨2, ![1024, 64]⟩
abbrev S2x1048576 : Shape := ⟨2, ![2, 1048576]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S2x1048576 : S_.BroadcastsInDim S2x1048576 (![] : Fin 0 → Fin S2x1048576.rank)
  reducesTo_S2x1048576_S_d0_1 : S2x1048576.ReducesTo [0, 1] S_

variable [Facts]

def fn_part2 {F : FTy → Type} [FloatOps F] (main_v28 : IVec S_ 1) (main_v33 : IVec S2x1048576 1) : IVec S_ 1 :=
  let main_c_12 : IVec S_ 1 := constantI S_ 1 1#1
  let main_v34 : IVec S_ 1 := (fun x v => Host.reduce IntOp.andi x v reducesTo_S2x1048576_S_d0_1 h_S_) main_v33 main_c_12
  let main_v35 : IVec S_ 1 := andi main_v28 main_v34
  main_v35

def fn_part1 {F : FTy → Type} [FloatOps F] (main_arg2 : IVec S2x1048576 32) (main_arg5 : FVec F S64x1 .f32) (main_arg6 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x1 .f32 := Host.absf main_arg5
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_c_10 : IVec S_ 32 := constantI S_ 32 0#32
  let main_v29 : IVec S2x1048576 32 := broadcastInDim S2x1048576 ![] bcast_S_S2x1048576 main_c_10
  let main_v30 : IVec S2x1048576 1 := cmpi .sge main_arg2 main_v29
  let main_c_11 : IVec S_ 32 := constantI S_ 32 1024#32
  let main_v31 : IVec S2x1048576 32 := broadcastInDim S2x1048576 ![] bcast_S_S2x1048576 main_c_11
  let main_v32 : IVec S2x1048576 1 := cmpi .slt main_arg2 main_v31
  let main_v33 : IVec S2x1048576 1 := andi main_v30 main_v32
  fn_part2 (F := F) main_v28 main_v33

def fn {F : FTy → Type} [FloatOps F] (main_arg0 : FVec F S1024x64 .f32) (main_arg1 : FVec F S1024x64 .f32) (main_arg2 : IVec S2x1048576 32) (main_arg3 : FVec F S256x64 .f32) (main_arg4 : FVec F S64 .f32) (main_arg5 : FVec F S64x1 .f32) (main_arg6 : FVec F S1 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S256x64 .f32 := Host.absf main_arg3
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg5 main_arg6 main_v13 main_v16
-- ==== Kernel.lean ====
abbrev S1024x64 : Shape := ⟨2, ![1024, 64]⟩
abbrev S2x1048576 : Shape := ⟨2, ![2, 1048576]⟩
abbrev S256x64 : Shape := ⟨2, ![256, 64]⟩
abbrev S64 : Shape := ⟨1, ![64]⟩
abbrev S64x1 : Shape := ⟨2, ![64, 1]⟩
abbrev S1 : Shape := ⟨1, ![1]⟩
abbrev S64x64 : Shape := ⟨2, ![64, 64]⟩
abbrev S64x1024 : Shape := ⟨2, ![64, 1024]⟩
abbrev S1024x1024 : Shape := ⟨2, ![1024, 1024]⟩
abbrev S128x64 : Shape := ⟨2, ![128, 64]⟩
abbrev S128x1024 : Shape := ⟨2, ![128, 1024]⟩
abbrev S128x1 : Shape := ⟨2, ![128, 1]⟩
abbrev S1x1024 : Shape := ⟨2, ![1, 1024]⟩
abbrev S1x1 : Shape := ⟨2, ![1, 1]⟩
abbrev S1x1048576 : Shape := ⟨2, ![1, 1048576]⟩
abbrev S1048576 : Shape := ⟨1, ![1048576]⟩
abbrev S_ : Shape := ⟨0, ![]⟩
abbrev S1048576x1 : Shape := ⟨2, ![1048576, 1]⟩

abbrev nBuf : Space → Nat
  | .hbm => 52
  | .vmem => 8
  | .smem => 0
  | _ => 0

abbrev bufTy : (tb : Table) → Fin (tcTables nBuf tb) → BufTy
  | .hbm, ⟨0, _⟩ => ⟨S1024x64, .f32⟩
  | .hbm, ⟨1, _⟩ => ⟨S1024x64, .f32⟩
  | .hbm, ⟨2, _⟩ => ⟨S2x1048576, .i32⟩
  | .hbm, ⟨3, _⟩ => ⟨S256x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S1024x64, .f32⟩
  | .hbm, ⟨12, _⟩ => ⟨S1024x64, .f32⟩
  | .hbm, ⟨13, _⟩ => ⟨S1024x64, .f32⟩
  | .hbm, ⟨14, _⟩ => ⟨S1024x64, .f32⟩
  | .hbm, ⟨15, _⟩ => ⟨S1024x64, .f32⟩
  | .hbm, ⟨16, _⟩ => ⟨S1024x64, .f32⟩
  | .hbm, ⟨17, _⟩ => ⟨S64x1024, .f32⟩
  | .hbm, ⟨18, _⟩ => ⟨S64, .f32⟩
  | .hbm, ⟨19, _⟩ => ⟨S1024x1024, .f32⟩
  | .hbm, ⟨20, _⟩ => ⟨S1x1048576, .i32⟩
  | .hbm, ⟨21, _⟩ => ⟨S1048576, .i32⟩
  | .hbm, ⟨22, _⟩ => ⟨S_, .i32⟩
  | .hbm, ⟨23, _⟩ => ⟨S1048576, .i32⟩
  | .hbm, ⟨24, _⟩ => ⟨S1048576, .i32⟩
  | .hbm, ⟨25, _⟩ => ⟨S1x1048576, .i32⟩
  | .hbm, ⟨26, _⟩ => ⟨S1048576, .i32⟩
  | .hbm, ⟨27, _⟩ => ⟨S1048576, .i32⟩
  | .hbm, ⟨28, _⟩ => ⟨S1048576, .f32⟩
  | .hbm, ⟨29, _⟩ => ⟨S_, .i32⟩
  | .hbm, ⟨30, _⟩ => ⟨S1048576, .i32⟩
  | .hbm, ⟨31, _⟩ => ⟨S1048576, .i1⟩
  | .hbm, ⟨32, _⟩ => ⟨S_, .i32⟩
  | .hbm, ⟨33, _⟩ => ⟨S1048576, .i32⟩
  | .hbm, ⟨34, _⟩ => ⟨S1048576, .i32⟩
  | .hbm, ⟨35, _⟩ => ⟨S1048576, .i32⟩
  | .hbm, ⟨36, _⟩ => ⟨S1048576x1, .i32⟩
  | .hbm, ⟨37, _⟩ => ⟨S1, .i32⟩
  | .hbm, ⟨38, _⟩ => ⟨S_, .i32⟩
  | .hbm, ⟨39, _⟩ => ⟨S1048576x1, .i32⟩
  | .hbm, ⟨40, _⟩ => ⟨S1048576x1, .i1⟩
  | .hbm, ⟨41, _⟩ => ⟨S1x1, .i32⟩
  | .hbm, ⟨42, _⟩ => ⟨S1048576x1, .i32⟩
  | .hbm, ⟨43, _⟩ => ⟨S1048576x1, .i1⟩
  | .hbm, ⟨44, _⟩ => ⟨S1048576x1, .i1⟩
  | .hbm, ⟨45, _⟩ => ⟨S_, .i1⟩
  | .hbm, ⟨46, _⟩ => ⟨S1048576, .i1⟩
  | .hbm, ⟨47, _⟩ => ⟨S1048576, .f32⟩
  | .hbm, ⟨48, _⟩ => ⟨S_, .f32⟩
  | .hbm, ⟨49, _⟩ => ⟨S1048576, .f32⟩
  | .hbm, ⟨50, _⟩ => ⟨S1048576, .f32⟩
  | .hbm, ⟨51, _⟩ => ⟨S1024x1024, .f32⟩
  | .local _ .vmem, ⟨0, _⟩ => ⟨S128x64, .f32⟩
  | .local _ .vmem, ⟨1, _⟩ => ⟨S128x64, .f32⟩
  | .local _ .vmem, ⟨2, _⟩ => ⟨S64x1024, .f32⟩
  | .local _ .vmem, ⟨3, _⟩ => ⟨S64, .f32⟩
  | .local _ .vmem, ⟨4, _⟩ => ⟨S64, .f32⟩
  | .local _ .vmem, ⟨5, _⟩ => ⟨S1, .f32⟩
  | .local _ .vmem, ⟨6, _⟩ => ⟨S128x1024, .f32⟩
  | .local _ .vmem, ⟨7, _⟩ => ⟨S128x1024, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_c : Ref sig .tc := ⟨.hbm, 29, rfl⟩
abbrev main_call0_v0 : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_c_1 : Ref sig .tc := ⟨.hbm, 37, rfl⟩
abbrev main_call0_c_2 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_3 : Ref sig .tc := ⟨.hbm, 45, rfl⟩
abbrev main_call0_v12 : Ref sig .tc := ⟨.hbm, 46, rfl⟩
abbrev main_call0_v13 : Ref sig .tc := ⟨.hbm, 47, rfl⟩
abbrev main_call0_cst : Ref sig .tc := ⟨.hbm, 48, rfl⟩
abbrev main_call0_v14 : Ref sig .tc := ⟨.hbm, 49, rfl⟩
abbrev main_v21 : Ref sig .tc := ⟨.hbm, 50, rfl⟩
abbrev main_v22 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S256x64_S64x64_0_0 : S256x64.Slices ![0, 0] S64x64
  slices_S256x64_S64x64_64_0 : S256x64.Slices ![64, 0] S64x64
  slices_S256x64_S64x64_128_0 : S256x64.Slices ![128, 0] S64x64
  slices_S256x64_S64x64_192_0 : S256x64.Slices ![192, 0] S64x64
  transposes_S1024x64_S64x1024_1_0 : S1024x64.Transposes [1, 0] S64x1024
  shapeCasts_S64x1_S64 : S64x1.ShapeCasts S64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S64_S64_0 : ∀ a, (![0] : Fin 1 → Nat) a + S64.size a ≤ S64.size a
  h_S64 : 0 < S64.numel
  shapeCasts_S64_S64 : S64.ShapeCasts S64
  inb_S1_S1_0 : ∀ a, (![0] : Fin 1 → Nat) a + S1.size a ≤ S1.size a
  h_S1 : 0 < S1.numel
  slices_S128x64_o0_0_S128x1 : S128x64.Slices ![0, 0] S128x1
  slices_S64x1024_o0_0_S1x1024 : S64x1024.Slices ![0, 0] S1x1024
  broadcasts_S128x1_S128x1024 : S128x1.Broadcasts S128x1024
  broadcasts_S1x1024_S128x1024 : S1x1024.Broadcasts S128x1024
  slices_S64_o0_S1 : S64.Slices ![0] S1
  inpos_S1_p0 : ∀ a, (![0] : Fin 1 → Nat) a < S1.size a
  slices_S128x64_o0_1_S128x1 : S128x64.Slices ![0, 1] S128x1
  slices_S64x1024_o1_0_S1x1024 : S64x1024.Slices ![1, 0] S1x1024
  slices_S64_o1_S1 : S64.Slices ![1] S1
  slices_S128x64_o0_2_S128x1 : S128x64.Slices ![0, 2] S128x1
  slices_S64x1024_o2_0_S1x1024 : S64x1024.Slices ![2, 0] S1x1024
  slices_S64_o2_S1 : S64.Slices ![2] S1
  slices_S128x64_o0_3_S128x1 : S128x64.Slices ![0, 3] S128x1
  slices_S64x1024_o3_0_S1x1024 : S64x1024.Slices ![3, 0] S1x1024
  slices_S64_o3_S1 : S64.Slices ![3] S1
  slices_S128x64_o0_4_S128x1 : S128x64.Slices ![0, 4] S128x1
  slices_S64x1024_o4_0_S1x1024 : S64x1024.Slices ![4, 0] S1x1024
  slices_S64_o4_S1 : S64.Slices ![4] S1
  slices_S128x64_o0_5_S128x1 : S128x64.Slices ![0, 5] S128x1
  slices_S64x1024_o5_0_S1x1024 : S64x1024.Slices ![5, 0] S1x1024
  slices_S64_o5_S1 : S64.Slices ![5] S1
  slices_S128x64_o0_6_S128x1 : S128x64.Slices ![0, 6] S128x1
  slices_S64x1024_o6_0_S1x1024 : S64x1024.Slices ![6, 0] S1x1024
  slices_S64_o6_S1 : S64.Slices ![6] S1
  slices_S128x64_o0_7_S128x1 : S128x64.Slices ![0, 7] S128x1
  slices_S64x1024_o7_0_S1x1024 : S64x1024.Slices ![7, 0] S1x1024
  slices_S64_o7_S1 : S64.Slices ![7] S1
  slices_S128x64_o0_8_S128x1 : S128x64.Slices ![0, 8] S128x1
  slices_S64x1024_o8_0_S1x1024 : S64x1024.Slices ![8, 0] S1x1024
  slices_S64_o8_S1 : S64.Slices ![8] S1
  slices_S128x64_o0_9_S128x1 : S128x64.Slices ![0, 9] S128x1
  slices_S64x1024_o9_0_S1x1024 : S64x1024.Slices ![9, 0] S1x1024
  slices_S64_o9_S1 : S64.Slices ![9] S1
  slices_S128x64_o0_10_S128x1 : S128x64.Slices ![0, 10] S128x1
  slices_S64x1024_o10_0_S1x1024 : S64x1024.Slices ![10, 0] S1x1024
  slices_S64_o10_S1 : S64.Slices ![10] S1
  slices_S128x64_o0_11_S128x1 : S128x64.Slices ![0, 11] S128x1
  slices_S64x1024_o11_0_S1x1024 : S64x1024.Slices ![11, 0] S1x1024
  slices_S64_o11_S1 : S64.Slices ![11] S1
  slices_S128x64_o0_12_S128x1 : S128x64.Slices ![0, 12] S128x1
  slices_S64x1024_o12_0_S1x1024 : S64x1024.Slices ![12, 0] S1x1024
  slices_S64_o12_S1 : S64.Slices ![12] S1
  slices_S128x64_o0_13_S128x1 : S128x64.Slices ![0, 13] S128x1
  slices_S64x1024_o13_0_S1x1024 : S64x1024.Slices ![13, 0] S1x1024
  slices_S64_o13_S1 : S64.Slices ![13] S1
  slices_S128x64_o0_14_S128x1 : S128x64.Slices ![0, 14] S128x1
  slices_S64x1024_o14_0_S1x1024 : S64x1024.Slices ![14, 0] S1x1024
  slices_S64_o14_S1 : S64.Slices ![14] S1
  slices_S128x64_o0_15_S128x1 : S128x64.Slices ![0, 15] S128x1
  slices_S64x1024_o15_0_S1x1024 : S64x1024.Slices ![15, 0] S1x1024
  slices_S64_o15_S1 : S64.Slices ![15] S1
  slices_S128x64_o0_16_S128x1 : S128x64.Slices ![0, 16] S128x1
  slices_S64x1024_o16_0_S1x1024 : S64x1024.Slices ![16, 0] S1x1024
  slices_S64_o16_S1 : S64.Slices ![16] S1
  slices_S128x64_o0_17_S128x1 : S128x64.Slices ![0, 17] S128x1
  slices_S64x1024_o17_0_S1x1024 : S64x1024.Slices ![17, 0] S1x1024
  slices_S64_o17_S1 : S64.Slices ![17] S1
  slices_S128x64_o0_18_S128x1 : S128x64.Slices ![0, 18] S128x1
  slices_S64x1024_o18_0_S1x1024 : S64x1024.Slices ![18, 0] S1x1024
  slices_S64_o18_S1 : S64.Slices ![18] S1
  slices_S128x64_o0_19_S128x1 : S128x64.Slices ![0, 19] S128x1
  slices_S64x1024_o19_0_S1x1024 : S64x1024.Slices ![19, 0] S1x1024
  slices_S64_o19_S1 : S64.Slices ![19] S1
  slices_S128x64_o0_20_S128x1 : S128x64.Slices ![0, 20] S128x1
  slices_S64x1024_o20_0_S1x1024 : S64x1024.Slices ![20, 0] S1x1024
  slices_S64_o20_S1 : S64.Slices ![20] S1
  slices_S128x64_o0_21_S128x1 : S128x64.Slices ![0, 21] S128x1
  slices_S64x1024_o21_0_S1x1024 : S64x1024.Slices ![21, 0] S1x1024
  slices_S64_o21_S1 : S64.Slices ![21] S1
  slices_S128x64_o0_22_S128x1 : S128x64.Slices ![0, 22] S128x1
  slices_S64x1024_o22_0_S1x1024 : S64x1024.Slices ![22, 0] S1x1024
  slices_S64_o22_S1 : S64.Slices ![22] S1
  slices_S128x64_o0_23_S128x1 : S128x64.Slices ![0, 23] S128x1
  slices_S64x1024_o23_0_S1x1024 : S64x1024.Slices ![23, 0] S1x1024
  slices_S64_o23_S1 : S64.Slices ![23] S1
  slices_S128x64_o0_24_S128x1 : S128x64.Slices ![0, 24] S128x1
  slices_S64x1024_o24_0_S1x1024 : S64x1024.Slices ![24, 0] S1x1024
  slices_S64_o24_S1 : S64.Slices ![24] S1
  slices_S128x64_o0_25_S128x1 : S128x64.Slices ![0, 25] S128x1
  slices_S64x1024_o25_0_S1x1024 : S64x1024.Slices ![25, 0] S1x1024
  slices_S64_o25_S1 : S64.Slices ![25] S1
  slices_S128x64_o0_26_S128x1 : S128x64.Slices ![0, 26] S128x1
  slices_S64x1024_o26_0_S1x1024 : S64x1024.Slices ![26, 0] S1x1024
  slices_S64_o26_S1 : S64.Slices ![26] S1
  slices_S128x64_o0_27_S128x1 : S128x64.Slices ![0, 27] S128x1
  slices_S64x1024_o27_0_S1x1024 : S64x1024.Slices ![27, 0] S1x1024
  slices_S64_o27_S1 : S64.Slices ![27] S1
  slices_S128x64_o0_28_S128x1 : S128x64.Slices ![0, 28] S128x1
  slices_S64x1024_o28_0_S1x1024 : S64x1024.Slices ![28, 0] S1x1024
  slices_S64_o28_S1 : S64.Slices ![28] S1
  slices_S128x64_o0_29_S128x1 : S128x64.Slices ![0, 29] S128x1
  slices_S64x1024_o29_0_S1x1024 : S64x1024.Slices ![29, 0] S1x1024
  slices_S64_o29_S1 : S64.Slices ![29] S1
  slices_S128x64_o0_30_S128x1 : S128x64.Slices ![0, 30] S128x1
  slices_S64x1024_o30_0_S1x1024 : S64x1024.Slices ![30, 0] S1x1024
  slices_S64_o30_S1 : S64.Slices ![30] S1
  slices_S128x64_o0_31_S128x1 : S128x64.Slices ![0, 31] S128x1
  slices_S64x1024_o31_0_S1x1024 : S64x1024.Slices ![31, 0] S1x1024
  slices_S64_o31_S1 : S64.Slices ![31] S1
  slices_S128x64_o0_32_S128x1 : S128x64.Slices ![0, 32] S128x1
  slices_S64x1024_o32_0_S1x1024 : S64x1024.Slices ![32, 0] S1x1024
  slices_S64_o32_S1 : S64.Slices ![32] S1
  slices_S128x64_o0_33_S128x1 : S128x64.Slices ![0, 33] S128x1
  slices_S64x1024_o33_0_S1x1024 : S64x1024.Slices ![33, 0] S1x1024
  slices_S64_o33_S1 : S64.Slices ![33] S1
  slices_S128x64_o0_34_S128x1 : S128x64.Slices ![0, 34] S128x1
  slices_S64x1024_o34_0_S1x1024 : S64x1024.Slices ![34, 0] S1x1024
  slices_S64_o34_S1 : S64.Slices ![34] S1
  slices_S128x64_o0_35_S128x1 : S128x64.Slices ![0, 35] S128x1
  slices_S64x1024_o35_0_S1x1024 : S64x1024.Slices ![35, 0] S1x1024
  slices_S64_o35_S1 : S64.Slices ![35] S1
  slices_S128x64_o0_36_S128x1 : S128x64.Slices ![0, 36] S128x1
  slices_S64x1024_o36_0_S1x1024 : S64x1024.Slices ![36, 0] S1x1024
  slices_S64_o36_S1 : S64.Slices ![36] S1
  slices_S128x64_o0_37_S128x1 : S128x64.Slices ![0, 37] S128x1
  slices_S64x1024_o37_0_S1x1024 : S64x1024.Slices ![37, 0] S1x1024
  slices_S64_o37_S1 : S64.Slices ![37] S1
  slices_S128x64_o0_38_S128x1 : S128x64.Slices ![0, 38] S128x1
  slices_S64x1024_o38_0_S1x1024 : S64x1024.Slices ![38, 0] S1x1024
  slices_S64_o38_S1 : S64.Slices ![38] S1
  slices_S128x64_o0_39_S128x1 : S128x64.Slices ![0, 39] S128x1
  slices_S64x1024_o39_0_S1x1024 : S64x1024.Slices ![39, 0] S1x1024
  slices_S64_o39_S1 : S64.Slices ![39] S1
  slices_S128x64_o0_40_S128x1 : S128x64.Slices ![0, 40] S128x1
  slices_S64x1024_o40_0_S1x1024 : S64x1024.Slices ![40, 0] S1x1024
  slices_S64_o40_S1 : S64.Slices ![40] S1
  slices_S128x64_o0_41_S128x1 : S128x64.Slices ![0, 41] S128x1
  slices_S64x1024_o41_0_S1x1024 : S64x1024.Slices ![41, 0] S1x1024
  slices_S64_o41_S1 : S64.Slices ![41] S1
  slices_S128x64_o0_42_S128x1 : S128x64.Slices ![0, 42] S128x1
  slices_S64x1024_o42_0_S1x1024 : S64x1024.Slices ![42, 0] S1x1024
  slices_S64_o42_S1 : S64.Slices ![42] S1
  slices_S128x64_o0_43_S128x1 : S128x64.Slices ![0, 43] S128x1
  slices_S64x1024_o43_0_S1x1024 : S64x1024.Slices ![43, 0] S1x1024
  slices_S64_o43_S1 : S64.Slices ![43] S1
  slices_S128x64_o0_44_S128x1 : S128x64.Slices ![0, 44] S128x1
  slices_S64x1024_o44_0_S1x1024 : S64x1024.Slices ![44, 0] S1x1024
  slices_S64_o44_S1 : S64.Slices ![44] S1
  slices_S128x64_o0_45_S128x1 : S128x64.Slices ![0, 45] S128x1
  slices_S64x1024_o45_0_S1x1024 : S64x1024.Slices ![45, 0] S1x1024
  slices_S64_o45_S1 : S64.Slices ![45] S1
  slices_S128x64_o0_46_S128x1 : S128x64.Slices ![0, 46] S128x1
  slices_S64x1024_o46_0_S1x1024 : S64x1024.Slices ![46, 0] S1x1024
  slices_S64_o46_S1 : S64.Slices ![46] S1
  slices_S128x64_o0_47_S128x1 : S128x64.Slices ![0, 47] S128x1
  slices_S64x1024_o47_0_S1x1024 : S64x1024.Slices ![47, 0] S1x1024
  slices_S64_o47_S1 : S64.Slices ![47] S1
  slices_S128x64_o0_48_S128x1 : S128x64.Slices ![0, 48] S128x1
  slices_S64x1024_o48_0_S1x1024 : S64x1024.Slices ![48, 0] S1x1024
  slices_S64_o48_S1 : S64.Slices ![48] S1
  slices_S128x64_o0_49_S128x1 : S128x64.Slices ![0, 49] S128x1
  slices_S64x1024_o49_0_S1x1024 : S64x1024.Slices ![49, 0] S1x1024
  slices_S64_o49_S1 : S64.Slices ![49] S1
  slices_S128x64_o0_50_S128x1 : S128x64.Slices ![0, 50] S128x1
  slices_S64x1024_o50_0_S1x1024 : S64x1024.Slices ![50, 0] S1x1024
  slices_S64_o50_S1 : S64.Slices ![50] S1
  slices_S128x64_o0_51_S128x1 : S128x64.Slices ![0, 51] S128x1
  slices_S64x1024_o51_0_S1x1024 : S64x1024.Slices ![51, 0] S1x1024
  slices_S64_o51_S1 : S64.Slices ![51] S1
  slices_S128x64_o0_52_S128x1 : S128x64.Slices ![0, 52] S128x1
  slices_S64x1024_o52_0_S1x1024 : S64x1024.Slices ![52, 0] S1x1024
  slices_S64_o52_S1 : S64.Slices ![52] S1
  slices_S128x64_o0_53_S128x1 : S128x64.Slices ![0, 53] S128x1
  slices_S64x1024_o53_0_S1x1024 : S64x1024.Slices ![53, 0] S1x1024
  slices_S64_o53_S1 : S64.Slices ![53] S1
  slices_S128x64_o0_54_S128x1 : S128x64.Slices ![0, 54] S128x1
  slices_S64x1024_o54_0_S1x1024 : S64x1024.Slices ![54, 0] S1x1024
  slices_S64_o54_S1 : S64.Slices ![54] S1
  slices_S128x64_o0_55_S128x1 : S128x64.Slices ![0, 55] S128x1
  slices_S64x1024_o55_0_S1x1024 : S64x1024.Slices ![55, 0] S1x1024
  slices_S64_o55_S1 : S64.Slices ![55] S1
  slices_S128x64_o0_56_S128x1 : S128x64.Slices ![0, 56] S128x1
  slices_S64x1024_o56_0_S1x1024 : S64x1024.Slices ![56, 0] S1x1024
  slices_S64_o56_S1 : S64.Slices ![56] S1
  slices_S128x64_o0_57_S128x1 : S128x64.Slices ![0, 57] S128x1
  slices_S64x1024_o57_0_S1x1024 : S64x1024.Slices ![57, 0] S1x1024
  slices_S64_o57_S1 : S64.Slices ![57] S1
  slices_S128x64_o0_58_S128x1 : S128x64.Slices ![0, 58] S128x1
  slices_S64x1024_o58_0_S1x1024 : S64x1024.Slices ![58, 0] S1x1024
  slices_S64_o58_S1 : S64.Slices ![58] S1
  slices_S128x64_o0_59_S128x1 : S128x64.Slices ![0, 59] S128x1
  slices_S64x1024_o59_0_S1x1024 : S64x1024.Slices ![59, 0] S1x1024
  slices_S64_o59_S1 : S64.Slices ![59] S1
  slices_S128x64_o0_60_S128x1 : S128x64.Slices ![0, 60] S128x1
  slices_S64x1024_o60_0_S1x1024 : S64x1024.Slices ![60, 0] S1x1024
  slices_S64_o60_S1 : S64.Slices ![60] S1
  slices_S128x64_o0_61_S128x1 : S128x64.Slices ![0, 61] S128x1
  slices_S64x1024_o61_0_S1x1024 : S64x1024.Slices ![61, 0] S1x1024
  slices_S64_o61_S1 : S64.Slices ![61] S1
  slices_S128x64_o0_62_S128x1 : S128x64.Slices ![0, 62] S128x1
  slices_S64x1024_o62_0_S1x1024 : S64x1024.Slices ![62, 0] S1x1024
  slices_S64_o62_S1 : S64.Slices ![62] S1
  slices_S128x64_o0_63_S128x1 : S128x64.Slices ![0, 63] S128x1
  slices_S64x1024_o63_0_S1x1024 : S64x1024.Slices ![63, 0] S1x1024
  slices_S64_o63_S1 : S64.Slices ![63] S1
  shapeCasts_S1_S1x1 : S1.ShapeCasts S1x1
  broadcasts_S1x1_S128x1024 : S1x1.Broadcasts S128x1024
  inb_S128x1024_S128x1024_0_0 : ∀ a, (![0, 0] : Fin 2 → Nat) a + S128x1024.size a ≤ S128x1024.size a
  h_S128x1024 : 0 < S128x1024.numel
  slices_S2x1048576_S1x1048576_0_0 : S2x1048576.Slices ![0, 0] S1x1048576
  shapeCasts_S1x1048576_S1048576 : S1x1048576.ShapeCasts S1048576
  bcast_S_S1048576 : S_.BroadcastsInDim S1048576 (![] : Fin 0 → Fin S1048576.rank)
  slices_S2x1048576_S1x1048576_1_0 : S2x1048576.Slices ![1, 0] S1x1048576
  shapeCasts_S1024x1024_S1048576 : S1024x1024.ShapeCasts S1048576
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  reducesTo_S1048576x1_S1048576_d1 : S1048576x1.ReducesTo [1] S1048576
  h_S_ : 0 < S_.numel
  shapeCasts_S1048576_S1024x1024 : S1048576.ShapeCasts S1024x1024
  dot_S1024x64_S64x64_S1024x64_1_0_0_1_n_n_wf : DotDims.WF S1024x64 S64x64 S1024x64 [1] [0] [0] [1] [] []
  gather_S1048576_S1048576x1_S1048576_n_0_n_n_0_1_1_wf : GatherDims.WF S1048576 S1048576x1 S1048576 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S1024x64.size a
  hwx0_0 : ∀ i : grid0.Coords, EltTy.bits .f32 = 32 ∨ (Rect.block (s := S1024x64) S128x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x1024.size a
  hwx0_1 : ∀ i : grid0.Coords, EltTy.bits .f32 = 32 ∨ (Rect.block (s := S64x1024) S64x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1024.size a ≤ S1024x1024.size a
  hwx0_5 : ∀ i : grid0.Coords, EltTy.bits .f32 = 32 ∨ (Rect.block (s := S1024x1024) S128x1024.size (cc0_transform_5 i) (hinb0_5 i)).WholeWords (EltTy.packing .f32)

variable [Facts₀]

def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def gather_S1048576_S1048576x1_S1048576_n_0_n_n_0_1_1 : GatherDims S1048576 S1048576x1 S1048576 where
  offsetDims := []
  collapsedSliceDims := [0]
  operandBatchingDims := []
  startIndicesBatchingDims := []
  startIndexMap := [0]
  indexVectorDim := 1
  sliceSizes := ![1]
  wf := gather_S1048576_S1048576x1_S1048576_n_0_n_n_0_1_1_wf

abbrev win0_0 : Pipeline.Window sig grid0 :=
  Pipeline.Window.ofSpec (Memref.whole main_v6) S128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S128x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1024x64 : Shape := ⟨2, ![1024, 64]⟩
abbrev S2x1048576 : Shape := ⟨2, ![2, 1048576]⟩
abbrev S256x64 : Shape := ⟨2, ![256, 64]⟩
abbrev S64 : Shape := ⟨1, ![64]⟩
abbrev S64x1 : Shape := ⟨2, ![64, 1]⟩
abbrev S1 : Shape := ⟨1, ![1]⟩
abbrev S1x1048576 : Shape := ⟨2, ![1, 1048576]⟩
abbrev S1048576 : Shape := ⟨1, ![1048576]⟩
abbrev S_ : Shape := ⟨0, ![]⟩
abbrev S1048576x1 : Shape := ⟨2, ![1048576, 1]⟩
abbrev S1048576x64 : Shape := ⟨2, ![1048576, 64]⟩
abbrev S1048576x256 : Shape := ⟨2, ![1048576, 256]⟩
abbrev S1x64 : Shape := ⟨2, ![1, 64]⟩
abbrev S1x1 : Shape := ⟨2, ![1, 1]⟩
abbrev S1024x1024 : Shape := ⟨2, ![1024, 1024]⟩

abbrev nBuf : Space → Nat
  | .hbm => 60
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S1024x64, .f32⟩
  | .hbm, ⟨2, _⟩ => ⟨S2x1048576, .i32⟩
  | .hbm, ⟨3, _⟩ => ⟨S256x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S1x1048576, .i32⟩
  | .hbm, ⟨8, _⟩ => ⟨S1048576, .i32⟩
  | .hbm, ⟨9, _⟩ => ⟨S1x1048576, .i32⟩
  | .hbm, ⟨10, _⟩ => ⟨S1048576, .i32⟩
  | .hbm, ⟨11, _⟩ => ⟨S_, .i32⟩
  | .hbm, ⟨12, _⟩ => ⟨S1048576, .i32⟩
  | .hbm, ⟨13, _⟩ => ⟨S1048576, .i1⟩
  | .hbm, ⟨14, _⟩ => ⟨S_, .i32⟩
  | .hbm, ⟨15, _⟩ => ⟨S1048576, .i32⟩
  | .hbm, ⟨16, _⟩ => ⟨S1048576, .i32⟩
  | .hbm, ⟨17, _⟩ => ⟨S1048576, .i32⟩
  | .hbm, ⟨18, _⟩ => ⟨S1048576x1, .i32⟩
  | .hbm, ⟨19, _⟩ => ⟨S1048576x64, .f32⟩
  | .hbm, ⟨20, _⟩ => ⟨S_, .i32⟩
  | .hbm, ⟨21, _⟩ => ⟨S1048576, .i32⟩
  | .hbm, ⟨22, _⟩ => ⟨S1048576, .i1⟩
  | .hbm, ⟨23, _⟩ => ⟨S_, .i32⟩
  | .hbm, ⟨24, _⟩ => ⟨S1048576, .i32⟩
  | .hbm, ⟨25, _⟩ => ⟨S1048576, .i32⟩
  | .hbm, ⟨26, _⟩ => ⟨S1048576, .i32⟩
  | .hbm, ⟨27, _⟩ => ⟨S1048576x1, .i32⟩
  | .hbm, ⟨28, _⟩ => ⟨S1048576x64, .f32⟩
  | .hbm, ⟨29, _⟩ => ⟨S_, .i32⟩
  | .hbm, ⟨30, _⟩ => ⟨S1048576, .i32⟩
  | .hbm, ⟨31, _⟩ => ⟨S1048576, .i1⟩
  | .hbm, ⟨32, _⟩ => ⟨S_, .i32⟩
  | .hbm, ⟨33, _⟩ => ⟨S1048576, .i32⟩
  | .hbm, ⟨34, _⟩ => ⟨S1048576, .i32⟩
  | .hbm, ⟨35, _⟩ => ⟨S1048576, .i32⟩
  | .hbm, ⟨36, _⟩ => ⟨S1048576x1, .i32⟩
  | .hbm, ⟨37, _⟩ => ⟨S1048576x64, .f32⟩
  | .hbm, ⟨38, _⟩ => ⟨S_, .i32⟩
  | .hbm, ⟨39, _⟩ => ⟨S1048576, .i32⟩
  | .hbm, ⟨40, _⟩ => ⟨S1048576, .i1⟩
  | .hbm, ⟨41, _⟩ => ⟨S_, .i32⟩
  | .hbm, ⟨42, _⟩ => ⟨S1048576, .i32⟩
  | .hbm, ⟨43, _⟩ => ⟨S1048576, .i32⟩
  | .hbm, ⟨44, _⟩ => ⟨S1048576, .i32⟩
  | .hbm, ⟨45, _⟩ => ⟨S1048576x1, .i32⟩
  | .hbm, ⟨46, _⟩ => ⟨S1048576x64, .f32⟩
  | .hbm, ⟨47, _⟩ => ⟨S1048576x256, .f32⟩
  | .hbm, ⟨48, _⟩ => ⟨S1048576x64, .f32⟩
  | .hbm, ⟨49, _⟩ => ⟨S1x64, .f32⟩
  | .hbm, ⟨50, _⟩ => ⟨S1048576x64, .f32⟩
  | .hbm, ⟨51, _⟩ => ⟨S1048576x64, .f32⟩
  | .hbm, ⟨52, _⟩ => ⟨S_, .f32⟩
  | .hbm, ⟨53, _⟩ => ⟨S1048576x64, .f32⟩
  | .hbm, ⟨54, _⟩ => ⟨S1048576x64, .f32⟩
  | .hbm, ⟨55, _⟩ => ⟨S1048576x1, .f32⟩
  | .hbm, ⟨56, _⟩ => ⟨S1x1, .f32⟩
  | .hbm, ⟨57, _⟩ => ⟨S1048576x1, .f32⟩
  | .hbm, ⟨58, _⟩ => ⟨S1048576x1, .f32⟩
  | .hbm, ⟨59, _⟩ => ⟨S1024x1024, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_call0_cst : Ref sig .tc := ⟨.hbm, 52, rfl⟩
abbrev main_call0_v0 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]

class Facts₀ : Prop where
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  bcast_S_S1048576 : S_.BroadcastsInDim S1048576 (![] : Fin 0 → Fin S1048576.rank)
  bcast_S1048576_S1048576x1_0 : S1048576.BroadcastsInDim S1048576x1 (![0] : Fin 1 → Fin S1048576x1.rank)
  concatenates_S1048576x64_S1048576x64_S1048576x64_S1048576x64_S1048576x256_d1 : Shape.Concatenates [S1048576x64, S1048576x64, S1048576x64, S1048576x64] S1048576x256 1
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  bcast_S_S1048576x64 : S_.BroadcastsInDim S1048576x64 (![] : Fin 0 → Fin S1048576x64.rank)
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  shapeCasts_S1048576x1_S1024x1024 : S1048576x1.ShapeCasts S1024x1024
  gather_S1024x64_S1048576x1_S1048576x64_1_0_n_n_0_1_164_wf : GatherDims.WF S1024x64 S1048576x1 S1048576x64 [1] [0] [] [0] [] 1 ![1, 64]
  dot_S1048576x256_S256x64_S1048576x64_1_0_0_1_n_n_wf : DotDims.WF S1048576x256 S256x64 S1048576x64 [1] [0] [0] [1] [] []
  dot_S1048576x64_S64x1_S1048576x1_1_0_0_1_n_n_wf : DotDims.WF S1048576x64 S64x1 S1048576x1 [1] [0] [0] [1] [] []

variable [Facts₀]

def gather_S1024x64_S1048576x1_S1048576x64_1_0_n_n_0_1_164 : GatherDims S1024x64 S1048576x1 S1048576x64 where
  offsetDims := [1]
  collapsedSliceDims := [0]
  operandBatchingDims := []
  startIndicesBatchingDims := []
  startIndexMap := [0]
  indexVectorDim := 1
  sliceSizes := ![1, 64]
  wf := gather_S1024x64_S1048576x1_S1048576x64_1_0_n_n_0_1_164_wf
def dot_S1048576x256_S256x64_S1048576x64_1_0_0_1_n_n : DotDims S1048576x256 S256x64 S1048576x64 where
  lhsContracting := [1]
  rhsContracting := [0]
  lhsNonContracting := [0]
  rhsNonContracting := [1]
  lhsBatch := []
  rhsBatch := []
  wf := dot_S1048576x256_S256x64_S1048576x64_1_0_0_1_n_n_wf
def dot_S1048576x64_S64x1_S1048576x1_1_0_0_1_n_n : DotDims S1048576x64 S64x1 S1048576x1 where
  lhsContracting := [1]
  rhsContracting := [0]
  lhsNonContracting := [0]
  rhsNonContracting := [1]
  lhsBatch := []
  rhsBatch := []
  wf := dot_S1048576x64_S64x1_S1048576x1_1_0_0_1_n_n_wf

class Facts : Prop extends Facts₀ where

variable [Facts]
-- ==== Proof.EdgeSpec.lean ====
/-
  The mathematics both programs compute, stated once over plain arrays of extended reals.

  An edge e joins node s = src[e] to node d = dst[e].  Its score is a two-layer perceptron of the four
  64-wide feature rows (enc[s], h[s], enc[d], h[d]) laid side by side as one row of 256 features:
      score(s, d) = sum_k  max(sum_j feat_j * W1[j, k] + b1[k], 0) * W2[k, 0]  +  b2[0].
  Because the 256 rows of W1 are the four 64-row bands that meet those four feature rows, the inner sum
  depends on (s, d) only through two per-node tables,
      A[s, k]  = sum_j enc[s, j] * W1[j, k]       + sum_j h[s, j] * W1[64 + j, k],
      Bt[k, d] = sum_j enc[d, j] * W1[128 + j, k] + sum_j h[d, j] * W1[192 + j, k],
  so score(s, d) is entry (s, d) of the pair table
      T[a, b] = sum_k max(A[a, k] + Bt[k, b] + b1[k], 0) * w2[k] + b2[0],        w2[k] = W2[k, 0].
  Splitting a sum over 256 indices into four sums over 64 only regroups a finite sum, which is valid on
  the extended reals without any finiteness assumption.
-/
import Idealize.ShloMosaic.PureOps.Ideal
import Idealize.ShloMosaic.Lib.ValueIdx

noncomputable section

namespace Cert.EdgeSpec

open Idealize.ShloMosaic Idealize.ShloMosaic.ValueIdx

/-- A matrix of extended reals with literal extents. -/
abbrev Mat (a b : ℕ) : Type := (⟨2, ![a, b]⟩ : Shape).Idx → EReal
/-- A vector of extended reals with a literal extent. -/
abbrev Vect (a : ℕ) : Type := (⟨1, ![a]⟩ : Shape).Idx → EReal
/-- The edge list: row 0 holds the source node of each edge, row 1 its destination. -/
abbrev Edges : Type := (⟨2, ![2, 1048576]⟩ : Shape).Idx → BitVec 32

/-! ## Nodes and edges -/

/-- The node a 32-bit word names, read signed and clamped into the 1024 nodes. -/
def node (w : BitVec 32) : Fin 1024 := ⟨min w.toInt.toNat 1023, by omega⟩

/-- Every endpoint of every edge is a node number, 0 ≤ · < 1024. -/
def InRange (E : Edges) : Prop := ∀ i, 0 ≤ (E i).toInt ∧ (E i).toInt < 1024

/-- Entry (r, c) of the 1024 × 1024 result is the score of edge 1024 r + c. -/
def edgeOf (i : (⟨2, ![1024, 1024]⟩ : Shape).Idx) : Fin 1048576 :=
  ⟨(i 0).val * 1024 + (i 1).val, by have h0 := (i 0).isLt; have h1 := (i 1).isLt; simp only [Matrix.cons_val_zero, Matrix.cons_val_one, Matrix.head_cons] at h0 h1; omega⟩

/-- The source node of the edge scored at result entry i. -/
def srcAt (E : Edges) (i : (⟨2, ![1024, 1024]⟩ : Shape).Idx) : Fin 1024 := node (E (ix2 (0 : Fin 2) (edgeOf i)))
/-- The destination node of the edge scored at result entry i. -/
def dstAt (E : Edges) (i : (⟨2, ![1024, 1024]⟩ : Shape).Idx) : Fin 1024 := node (E (ix2 (1 : Fin 2) (edgeOf i)))

/-! ## The pair table -/

/-- Hidden unit k's contribution to the score of the node pair (a, b), from the two node tables. -/
def unitTerm (A : Mat 1024 64) (Bt : Mat 64 1024) (b1 w2 : Vect 64) (a b : Fin 1024) (k : Fin 64) : EReal :=
  max (A (ix2 a k) + Bt (ix2 k b) + b1 (ix1 k)) 0 * w2 (ix1 k)

/-- The pair table T[a, b]. -/
def pairTable (A : Mat 1024 64) (Bt : Mat 64 1024) (b1 w2 : Vect 64) (b2 : Vect 1) : Mat 1024 1024 :=
  fun i => (∑ k : Fin 64, unitTerm A Bt b1 w2 (i 0) (i 1) k) + b2 (ix1 (0 : Fin 1))

/-- Band o of W1 (rows o .. o + 63) against a 64-wide feature row: entry (n, k) of X · W1[o : o + 64, :]. -/
def bandDot (X : Mat 1024 64) (W1 : Mat 256 64) (o : ℕ) (ho : o + 64 ≤ 256) (n : Fin 1024) (k : Fin 64) : EReal :=
  ∑ j : Fin 64, X (ix2 n j) * W1 (ix2 ⟨o + j.val, by have := j.isLt; omega⟩ k)

/-- The source-side node table A. -/
def nodeA (enc h : Mat 1024 64) (W1 : Mat 256 64) : Mat 1024 64 :=
  fun i => bandDot enc W1 0 (by omega) (i 0) (i 1) + bandDot h W1 64 (by omega) (i 0) (i 1)

/-- The destination-side node table, transposed: Bt[k, d]. -/
def nodeBt (enc h : Mat 1024 64) (W1 : Mat 256 64) : Mat 64 1024 :=
  fun i => bandDot enc W1 128 (by omega) (i 1) (i 0) + bandDot h W1 192 (by omega) (i 1) (i 0)

/-- The one column of W2 as a vector. -/
def colOf (W2 : Mat 64 1) : Vect 64 := fun i => W2 (ix2 (i 0) (0 : Fin 1))

/-! ## The perceptron on the concatenated features -/

/-- Feature j of the pair (s, d): the four 64-wide rows enc[s], h[s], enc[d], h[d] side by side. -/
def feat (enc h : Mat 1024 64) (s d : Fin 1024) (j : Fin 256) : EReal :=
  if h0 : j.val < 64 then enc (ix2 s ⟨j.val, h0⟩)
  else if h1 : j.val < 128 then h (ix2 s ⟨j.val - 64, by omega⟩)
  else if h2 : j.val < 192 then enc (ix2 d ⟨j.val - 128, by omega⟩)
  else h (ix2 d ⟨j.val - 192, by have := j.isLt; omega⟩)

/-- The score of the node pair (s, d) by the perceptron on the concatenated features. -/
def mlpScore (enc h : Mat 1024 64) (W1 : Mat 256 64) (b1 : Vect 64) (W2 : Mat 64 1) (b2 : Vect 1) (s d : Fin 1024) : EReal :=
  (∑ k : Fin 64, max ((∑ j : Fin 256, feat enc h s d j * W1 (ix2 j k)) + b1 (ix1 k)) 0 * W2 (ix2 k (0 : Fin 1)))
    + b2 (ix1 (0 : Fin 1))

/-! ## The law joining the two: the perceptron's first layer splits over the four bands of W1 -/

/-- A sum over 256 indices is the sum of its four consecutive 64-index bands. Only regrouping: valid in any
    commutative monoid, so on the extended reals without finiteness. -/
theorem sum_four_bands (f : Fin 256 → EReal) :
    ∑ j, f j = ((∑ j : Fin 64, f ⟨j.val, by have := j.isLt; omega⟩) + ∑ j : Fin 64, f ⟨64 + j.val, by have := j.isLt; omega⟩)
      + ((∑ j : Fin 64, f ⟨128 + j.val, by have := j.isLt; omega⟩) + ∑ j : Fin 64, f ⟨192 + j.val, by have := j.isLt; omega⟩) := by
  have h1 := Fin.sum_univ_add (a := 128) (b := 128) (f : Fin (128 + 128) → EReal)
  have h2 := Fin.sum_univ_add (a := 64) (b := 64) (fun i : Fin (64 + 64) => f (Fin.castAdd 128 i))
  have h3 := Fin.sum_univ_add (a := 64) (b := 64) (fun i : Fin (64 + 64) => f (Fin.natAdd 128 i))
  refine h1.trans ?_
  refine congrArg₂ (· + ·) (h2.trans ?_) (h3.trans ?_)
  · refine congrArg₂ (· + ·) (Finset.sum_congr rfl fun j _ => congrArg f (Fin.ext rfl))
      (Finset.sum_congr rfl fun j _ => congrArg f (Fin.ext rfl))
  · refine congrArg₂ (· + ·) (Finset.sum_congr rfl fun j _ => congrArg f (Fin.ext ?_))
      (Finset.sum_congr rfl fun j _ => congrArg f (Fin.ext ?_))
    · show 128 + (j.val) = 128 + j.val; rfl
    · show 128 + (64 + j.val) = 192 + j.val; omega

/-- The first layer on the concatenated features is the sum of the two node tables' entries. -/
theorem firstLayer_split (enc h : Mat 1024 64) (W1 : Mat 256 64) (s d : Fin 1024) (k : Fin 64) :
    (∑ j : Fin 256, feat enc h s d j * W1 (ix2 j k))
      = nodeA enc h W1 (ix2 s k) + nodeBt enc h W1 (ix2 k d) := by
  rw [sum_four_bands]
  refine congrArg₂ (· + ·) (congrArg₂ (· + ·) ?_ ?_) (congrArg₂ (· + ·) ?_ ?_)
  · refine Finset.sum_congr rfl fun j _ => ?_
    have hj := j.isLt
    unfold feat
    rw [dif_pos (show (⟨j.val, by omega⟩ : Fin 256).val < 64 from hj)]
    refine congrArg₂ (· * ·) rfl (congrArg W1 (congrArg (ix2 · k) (Fin.ext ?_)))
    show j.val = 0 + j.val; omega
  · refine Finset.sum_congr rfl fun j _ => ?_
    have hj := j.isLt
    unfold feat
    rw [dif_neg (show ¬ (⟨64 + j.val, by omega⟩ : Fin 256).val < 64 from by show ¬ 64 + j.val < 64; omega),
      dif_pos (show (⟨64 + j.val, by omega⟩ : Fin 256).val < 128 from by show 64 + j.val < 128; omega)]
    refine congrArg₂ (· * ·) (congrArg h (congrArg (ix2 s ·) (Fin.ext ?_))) rfl
    show 64 + j.val - 64 = j.val; omega
  · refine Finset.sum_congr rfl fun j _ => ?_
    have hj := j.isLt
    unfold feat
    rw [dif_neg (show ¬ (⟨128 + j.val, by omega⟩ : Fin 256).val < 64 from by show ¬ 128 + j.val < 64; omega),
      dif_neg (show ¬ (⟨128 + j.val, by omega⟩ : Fin 256).val < 128 from by show ¬ 128 + j.val < 128; omega),
      dif_pos (show (⟨128 + j.val, by omega⟩ : Fin 256).val < 192 from by show 128 + j.val < 192; omega)]
    refine congrArg₂ (· * ·) (congrArg enc (congrArg (ix2 d ·) (Fin.ext ?_))) rfl
    show 128 + j.val - 128 = j.val; omega
  · refine Finset.sum_congr rfl fun j _ => ?_
    have hj := j.isLt
    unfold feat
    rw [dif_neg (show ¬ (⟨192 + j.val, by omega⟩ : Fin 256).val < 64 from by show ¬ 192 + j.val < 64; omega),
      dif_neg (show ¬ (⟨192 + j.val, by omega⟩ : Fin 256).val < 128 from by show ¬ 192 + j.val < 128; omega),
      dif_neg (show ¬ (⟨192 + j.val, by omega⟩ : Fin 256).val < 192 from by show ¬ 192 + j.val < 192; omega)]
    refine congrArg₂ (· * ·) (congrArg h (congrArg (ix2 d ·) (Fin.ext ?_))) rfl
    show 192 + j.val - 192 = j.val; omega

/-- THE LAW: the perceptron's score of the pair (s, d) is entry (s, d) of the pair table built from the two node
    tables. -/
theorem mlpScore_eq_pairTable (enc h : Mat 1024 64) (W1 : Mat 256 64) (b1 : Vect 64) (W2 : Mat 64 1) (b2 : Vect 1)
    (s d : Fin 1024) :
    mlpScore enc h W1 b1 W2 b2 s d = pairTable (nodeA enc h W1) (nodeBt enc h W1) b1 (colOf W2) b2 (ix2 s d) := by
  unfold mlpScore pairTable
  refine congrArg (· + b2 (ix1 (0 : Fin 1))) (Finset.sum_congr rfl fun k _ => ?_)
  unfold unitTerm
  rw [firstLayer_split]
  rfl

end Cert.EdgeSpec

end
-- ==== Proof.EdgeRange.lean ====
/-
  Every endpoint of every edge names one of the 1024 nodes.

  The precondition is a conjunction of tests, each reduced by "and" over all entries of one array and then
  joined by "and". Its last conjunct tests the edge list entrywise: 0 ≤ E[r, e] and E[r, e] < 1024, both
  comparisons read as signed 32-bit words. A conjunction that holds gives each of its conjuncts, an
  "and" over all entries that holds gives the test at each entry, and a signed comparison that holds is
  the order of the two words read as integers.
-/
import proofs.«421895_j87299505258630_3_alg».proof.Defs
import proofs.«421895_j87299505258630_3_alg».proof.Proof.EdgeSpec
import Idealize.ShloMosaic.Lib.ReduceAll
import Idealize.ShloMosaic.Lib.ValueIdx

noncomputable section

open Idealize.ShloMosaic Idealize.ShloMosaic.TcCoe Idealize.SL.Sem Idealize.ShloMosaic.ValueIdx Cert.EdgeSpec

namespace Cert.KernelTable
open Cert.KernelIdeal
variable (m : (ℓ : Loc nD τ sig) → Buf (Elt Ideal) ℓ)

namespace Range

/-- A rank-0 array has exactly one index. -/
instance scalarIdx_subsingleton : Subsingleton Cert.Pre_finite_inputs.S_.Idx := ⟨fun a b => funext fun d => d.elim0⟩

/-- One word passing both signed comparisons, 0 ≤ w and w < 1024, lies in [0, 1024) as an integer. -/
theorem entry_range (w : BitVec 32)
    (h : IntOp.andi (IntOp.cmpi .sge w 0#32) (IntOp.cmpi .slt w 1024#32) = 1#1) :
    0 ≤ w.toInt ∧ w.toInt < 1024 := by
  obtain ⟨hge, hlt⟩ := IntOp.andi_eq_one.1 h
  have h0 := IntOp.cmpi_sge.1 hge
  have h1 := IntOp.cmpi_slt.1 hlt
  have e0 : (0#32 : BitVec 32).toInt = 0 := by decide
  have e1 : (1024#32 : BitVec 32).toInt = 1024 := by decide
  rw [e0] at h0
  rw [e1] at h1
  exact ⟨h0, h1⟩

end Range
open Range

/-- The precondition bounds every endpoint: its last conjunct is the entrywise range test of the edge
    list, reduced by "and" over both axes. -/
theorem inRange_of_pre [Cert.Pre_finite_inputs.Facts] (hpre : Cert.Pre_KernelIdeal m) (c : Dev nD) :
    InRange (m ((c.tc : Thread nD τ).loc main_arg2)) := by
  intro i
  have h := congrFun (hpre c) ValueIdx.ix0
  dsimp only [Cert.Pre_finite_inputs.fn, Cert.Pre_finite_inputs.fn_part1, Cert.Pre_finite_inputs.fn_part2] at h
  -- the outermost "and" joins the earlier conjuncts with the reduced range test
  have hall := (IntOp.andi_eq_one.1 h).2
  -- an "and" over all entries that holds, holds at entry i
  exact entry_range _ (Host.reduce_andi_all _ _ _ _ _ hall i)

end Cert.KernelTable
end
-- ==== Proof.KernelPrefix.lean ====
/-
  What the host computes before the kernel is launched: the two per-node tables and the second layer's
  weights as a vector.

  Each of the four products is a 1024 x 64 feature matrix against one 64-row band of W1; at entry (n, k) it
  is the sum over j of X[n, j] * W1[o + j, k] for the band's first row o. The source-side table A adds the
  bands at rows 0 and 64 (against enc and h); the destination-side table adds the bands at rows 128 and 192
  and is then transposed, so that its entry (k, d) is what the kernel adds to A[s, k]. The 64 x 1 weight
  matrix of the second layer is reshaped to a vector: entry k is W2[k, 0].
-/
import proofs.«421895_j87299505258630_3_alg».proof.Proof.Gen.KernelIdeal.Frame
import proofs.«421895_j87299505258630_3_alg».proof.Proof.EdgeSpec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelTable

open Idealize.ShloMosaic Idealize.ShloMosaic.TcCoe Idealize.SL.Sem Idealize.ShloMosaic.ValueIdx Idealize.ShloMosaic.StableHlo
open Cert.KernelIdeal Cert.KernelIdeal.Gen Cert.EdgeSpec

/-! ## One band product at an entry -/

theorem band_lhs_0 (i : S1024x64.Idx) (q : dot_S1024x64_S64x64_S1024x64_1_0_0_1_n_n.contr.Idx) :
    (dot_S1024x64_S64x64_S1024x64_1_0_0_1_n_n.lhsIdx i q 0).val = (i 0).val := by
  unfold DotDims.lhsIdx
  rw [dif_neg (show ¬(0 : Fin S1024x64.rank) ∈ dot_S1024x64_S64x64_S1024x64_1_0_0_1_n_n.lhsBatch by decide),
    dif_pos (show (0 : Fin S1024x64.rank) ∈ dot_S1024x64_S64x64_S1024x64_1_0_0_1_n_n.lhsNonContracting by decide)]
  rfl
theorem band_lhs_1 (i : S1024x64.Idx) (q : dot_S1024x64_S64x64_S1024x64_1_0_0_1_n_n.contr.Idx) :
    (dot_S1024x64_S64x64_S1024x64_1_0_0_1_n_n.lhsIdx i q 1).val = (q ⟨0, by decide⟩).val :=
  dot_S1024x64_S64x64_S1024x64_1_0_0_1_n_n.lhsIdx_val_of_single rfl i q
theorem band_rhs_0 (i : S1024x64.Idx) (q : dot_S1024x64_S64x64_S1024x64_1_0_0_1_n_n.contr.Idx) :
    (dot_S1024x64_S64x64_S1024x64_1_0_0_1_n_n.rhsIdx i q 0).val = (q ⟨0, by decide⟩).val :=
  dot_S1024x64_S64x64_S1024x64_1_0_0_1_n_n.rhsIdx_val_of_single rfl i q
theorem band_rhs_1 (i : S1024x64.Idx) (q : dot_S1024x64_S64x64_S1024x64_1_0_0_1_n_n.contr.Idx) :
    (dot_S1024x64_S64x64_S1024x64_1_0_0_1_n_n.rhsIdx i q 1).val = (i 1).val := by
  unfold DotDims.rhsIdx
  rw [dif_neg (show ¬(1 : Fin S64x64.rank) ∈ dot_S1024x64_S64x64_S1024x64_1_0_0_1_n_n.rhsBatch by decide),
    dif_pos (show (1 : Fin S64x64.rank) ∈ dot_S1024x64_S64x64_S1024x64_1_0_0_1_n_n.rhsNonContracting by decide)]
  rfl

/-- A feature matrix against a 64 x 64 weight block, at entry (n, k'): the sum over the 64 shared indices. -/
theorem band_dot_apply (prec : Option ContractPrecision) (X : FVec Ideal S1024x64 .f32) (W : FVec Ideal S64x64 .f32)
    (n : Fin 1024) (k' : Fin 64) :
    Host.dotGeneral (F := Ideal) dot_S1024x64_S64x64_S1024x64_1_0_0_1_n_n prec X W (ix2 n k')
      = ∑ k : Fin 64, X (ix2 n k) * W (ix2 k k') := by
  simp only [Host.dotGeneral]
  rw [Ideal.dotGeneral_apply, ← Equiv.sum_comp (ValueIdx.contrEquiv1 dot_S1024x64_S64x64_S1024x64_1_0_0_1_n_n 64 rfl rfl).symm]
  refine Finset.sum_congr rfl fun k _ => ?_
  have hk := ValueIdx.contrEquiv1_symm_val dot_S1024x64_S64x64_S1024x64_1_0_0_1_n_n 64 rfl rfl k
  have el : dot_S1024x64_S64x64_S1024x64_1_0_0_1_n_n.lhsIdx (ix2 n k') ((ValueIdx.contrEquiv1 dot_S1024x64_S64x64_S1024x64_1_0_0_1_n_n 64 rfl rfl).symm k) = ix2 n k := funext fun a => Fin.ext (by
    match a with
    | ⟨0, _⟩ => exact band_lhs_0 _ _
    | ⟨1, _⟩ => exact (band_lhs_1 _ _).trans hk)
  have er : dot_S1024x64_S64x64_S1024x64_1_0_0_1_n_n.rhsIdx (ix2 n k') ((ValueIdx.contrEquiv1 dot_S1024x64_S64x64_S1024x64_1_0_0_1_n_n 64 rfl rfl).symm k) = ix2 k k' := funext fun a => Fin.ext (by
    match a with
    | ⟨0, _⟩ => exact (band_rhs_0 _ _).trans hk
    | ⟨1, _⟩ => exact band_rhs_1 _ _)
  rw [el, er]

/-- The same against band o of W1, cut out as a 64 x 64 block: the specification's band product. -/
theorem band_slice_dot_apply (prec : Option ContractPrecision) (X : FVec Ideal S1024x64 .f32) (W1 : FVec Ideal S256x64 .f32)
    (o : ℕ) (ho : o + 64 ≤ 256) (h : S256x64.Slices ![o, 0] S64x64) (n : Fin 1024) (k' : Fin 64) :
    Host.dotGeneral (F := Ideal) dot_S1024x64_S64x64_S1024x64_1_0_0_1_n_n prec X (extractStridedSlice S64x64 ![o, 0] W1 h) (ix2 n k')
      = bandDot X W1 o ho n k' := by
  rw [band_dot_apply]
  unfold bandDot
  refine Finset.sum_congr rfl fun k _ => ?_
  rw [slice2_axis0_eq]

/-! ## The three arrays the region finds -/

variable (m : (ℓ : Loc nD τ sig) → Buf (Elt Ideal) ℓ)

/-- The argument arrays the host prefix reads, each at its literal type. -/
abbrev argEnc (c : Dev nD) : FVec Ideal S1024x64 .f32 := m ((c.tc : Thread nD τ).loc main_arg0)
abbrev argH (c : Dev nD) : FVec Ideal S1024x64 .f32 := m ((c.tc : Thread nD τ).loc main_arg1)
abbrev argW1 (c : Dev nD) : FVec Ideal S256x64 .f32 := m ((c.tc : Thread nD τ).loc main_arg3)
abbrev argW2 (c : Dev nD) : FVec Ideal S64x1 .f32 := m ((c.tc : Thread nD τ).loc main_arg5)

/-- The source-side node table, as the region finds it. -/
theorem prefix_A (c : Dev nD) :
    V m c main_v6 = nodeA (m ((c.tc : Thread nD τ).loc main_arg0)) (m ((c.tc : Thread nD τ).loc main_arg1)) (m ((c.tc : Thread nD τ).loc main_arg3)) := by
  have e : (V m c main_v6 : S1024x64.Idx → EReal)
      = addf (Host.dotGeneral (F := Ideal) dot_S1024x64_S64x64_S1024x64_1_0_0_1_n_n (some .fp32) (argEnc m c)
            (extractStridedSlice S64x64 ![0, 0] (argW1 m c) slices_S256x64_S64x64_0_0))
          (Host.dotGeneral (F := Ideal) dot_S1024x64_S64x64_S1024x64_1_0_0_1_n_n (some .fp32) (argH m c)
            (extractStridedSlice S64x64 ![64, 0] (argW1 m c) slices_S256x64_S64x64_64_0)) := by
    show StableHlo.after hostOps0 (fun b => m (c, b)) (Proc.devRef .tc main_v6) = _
    after_results
  rw [e]
  funext i
  obtain ⟨n, k', rfl⟩ : ∃ (n : Fin 1024) (k' : Fin 64), i = ix2 n k' := ⟨i 0, i 1, eq_ix2 i⟩
  show _ + _ = _
  rw [band_slice_dot_apply _ _ _ 0 (by omega), band_slice_dot_apply _ _ _ 64 (by omega)]
  rfl

/-- The destination-side node table, transposed, as the region finds it. -/
theorem prefix_Bt (c : Dev nD) :
    V m c main_v10 = nodeBt (m ((c.tc : Thread nD τ).loc main_arg0)) (m ((c.tc : Thread nD τ).loc main_arg1)) (m ((c.tc : Thread nD τ).loc main_arg3)) := by
  have e : (V m c main_v10 : S64x1024.Idx → EReal)
      = transpose S64x1024 [1, 0] (addf (Host.dotGeneral (F := Ideal) dot_S1024x64_S64x64_S1024x64_1_0_0_1_n_n (some .fp32) (argEnc m c)
            (extractStridedSlice S64x64 ![128, 0] (argW1 m c) slices_S256x64_S64x64_128_0))
          (Host.dotGeneral (F := Ideal) dot_S1024x64_S64x64_S1024x64_1_0_0_1_n_n (some .fp32) (argH m c)
            (extractStridedSlice S64x64 ![192, 0] (argW1 m c) slices_S256x64_S64x64_192_0)))
          transposes_S1024x64_S64x1024_1_0 := by
    show StableHlo.after hostOps0 (fun b => m (c, b)) (Proc.devRef .tc main_v10) = _
    after_results
  rw [e]
  funext i
  obtain ⟨k, d, rfl⟩ : ∃ (k : Fin 64) (d : Fin 1024), i = ix2 k d := ⟨i 0, i 1, eq_ix2 i⟩
  rw [transpose_ix2_apply]
  show _ + _ = _
  rw [band_slice_dot_apply _ _ _ 128 (by omega), band_slice_dot_apply _ _ _ 192 (by omega)]
  rfl

/-- The second layer's weights as a vector, as the region finds them. -/
theorem prefix_w2 (c : Dev nD) : V m c main_v11 = colOf (m ((c.tc : Thread nD τ).loc main_arg5)) := by
  have e : (V m c main_v11 : S64.Idx → EReal) = shapeCast S64 (argW2 m c) shapeCasts_S64x1_S64 := by
    show StableHlo.after hostOps0 (fun b => m (c, b)) (Proc.devRef .tc main_v11) = _
    after_results
    rfl
  rw [e]
  funext i
  obtain ⟨k, rfl⟩ : ∃ k : Fin 64, i = ix1 k := ⟨i 0, eq_ix1 i⟩
  show shapeCast S64 (argW2 m c) shapeCasts_S64x1_S64 (ix1 k) = argW2 m c (ix2 k (0 : Fin 1))
  refine shapeCast_apply (argW2 m c) shapeCasts_S64x1_S64 (ix1 k) (ix2 k (0 : Fin 1)) ?_
  rw [Shape.rowMajor_val_two, Shape.rowMajor_val_one]
  show k.val * 1 + 0 = k.val
  omega

end Cert.KernelTable

end
-- ==== Proof.LibColumn.lean ====
/-
  The keepdims column forms of a vector: a length-a vector viewed as an a x 1 column, and an a x 1 column
  repeated across b columns, each read at an index. (The row forms, 1 x b, are in the library.)
-/
import Idealize.ShloMosaic.Lib.Pipeline.Value
import Idealize.ShloMosaic.Lib.ValueIdx

namespace Cert.LibColumn

open Idealize.ShloMosaic Idealize.ShloMosaic.ValueIdx

variable {α : Type}

/-- A length-a vector cast to an a x 1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An a x 1 column broadcast to a x b reads, at (p, c), the column's entry in row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibColumn
-- ==== Proof.KernelPayload.lean ====
/-
  What the kernel body stores, read at one entry.

  On a 128-row band of source nodes the body holds column k of the band's node-table block (one value per row),
  row k of the destination-side table (one value per column) and entry k of the first layer's bias, adds the
  three, clips at zero, scales by entry k of the second layer's weights, and adds that onto a running sum that
  starts at zero; after the 64 hidden units it adds the output bias. At entry (p, q) this is
      sum_k max(x0[p, k] + x1[k, q] + x2[k], 0) * x3[k] + x4[0],
  the 64 terms added in order of k onto zero.
-/
import proofs.«421895_j87299505258630_3_alg».proof.Proof.Gen.KernelIdeal.Frame
import proofs.«421895_j87299505258630_3_alg».proof.Proof.EdgeSpec
import proofs.«421895_j87299505258630_3_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelTable

open Idealize.ShloMosaic Idealize.ShloMosaic.TcCoe Idealize.SL.Sem Idealize.ShloMosaic.ValueIdx
open Cert.KernelIdeal Cert.KernelIdeal.Gen Cert.EdgeSpec

/-! ## Three reads the loop body repeats, for any offset -/

section Reads
variable {α : Type}

/-- Entry o of a length-64 vector, taken as a one-entry slice and then as a scalar. -/
theorem entry_apply (o : ℕ) (v : (⟨1, ![64]⟩ : Shape).Idx → α) (h : (⟨1, ![64]⟩ : Shape).Slices ![o] ⟨1, ![1]⟩)
    (hp : ∀ a, (![0] : Fin 1 → ℕ) a < (⟨1, ![1]⟩ : Shape).size a) :
    extractAt ![0] (extractStridedSlice ⟨1, ![1]⟩ ![o] v h) hp
      = v (ix1 ⟨o, by have h2 : o + 1 ≤ 64 := h.2 0; omega⟩) := by
  unfold extractAt
  refine extractStridedSlice_apply _ _ _ _ _ fun a => ?_
  match a with
  | ⟨0, _⟩ => rfl

/-- A one-entry vector viewed as a 1 x 1 matrix and repeated over a 128 x 1024 block: its entry everywhere. -/
theorem unit_bcast_apply (v : (⟨1, ![1]⟩ : Shape).Idx → α) (hc : (⟨1, ![1]⟩ : Shape).ShapeCasts ⟨2, ![1, 1]⟩)
    (hb : (⟨2, ![1, 1]⟩ : Shape).Broadcasts ⟨2, ![128, 1024]⟩) (p : Fin 128) (q : Fin 1024) :
    broadcastTo ⟨2, ![128, 1024]⟩ (shapeCast ⟨2, ![1, 1]⟩ v hc) hb (ix2 p q) = v (ix1 (0 : Fin 1)) := by
  refine (broadcastTo_apply _ hb (ix2 p q) (ix2 (0 : Fin 1) (0 : Fin 1)) fun a => ?_).trans (shapeCast_a_1a_apply v hc 0 0)
  match a with
  | ⟨0, _⟩ => rfl
  | ⟨1, _⟩ => rfl

end Reads

/-! ## The stored value at an entry -/

theorem zero_offsets2 : (![0, 0] : Fin 2 → Nat) = fun _ => 0 := funext fun a => by fin_cases a <;> rfl
theorem zero_offsets1 : (![0] : Fin 1 → Nat) = fun _ => 0 := funext fun a => by fin_cases a; rfl

/-- What the body stores at entry (p, q) of its 128 x 1024 output block, from its five loaded blocks: the 64 hidden
    units' contributions, added one after the other onto a zero, then the output bias. Each unit k reads column k of
    the source-side block (one entry per row p), row k of the destination-side table (one entry per column q) and
    entry k of the two length-64 vectors. -/
theorem stored_apply (x0 : Vec Ideal S128x64 .f32) (x1 : Vec Ideal S64x1024 .f32) (x2 x3 : Vec Ideal S64 .f32) (x4 : Vec Ideal S1 .f32)
    (p : Fin 128) (q : Fin 1024) :
    out0_5 x0 x1 x2 x3 x4 (ix2 p q)
      = (∑ k : Fin 64, max (x0 (ix2 p k) + x1 (ix2 k q) + x2 (ix1 k)) 0 * x3 (ix1 k)) + x4 (ix1 (0 : Fin 1)) := by
  unfold out0_5
  rw [View.canon_unit_zero zero_offsets2]
  simp only [View.ld_unit_zero (S := S128x64) zero_offsets2, View.ld_unit_zero (S := S64x1024) zero_offsets2,
    View.ld_unit_zero (S := S64) zero_offsets1, View.ld_unit_zero (S := S1) zero_offsets1]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, shapeCast_self, addf_apply, mulf_apply, maximumf_apply, broadcast_apply,
    Cert.LibColumn.broadcastTo_a1_ab_apply, broadcastTo_1b_ab_apply, slice2_axis1_eq, slice2_axis0_eq, entry_apply, unit_bcast_apply,
    Scalar.ofBits, Ideal.ofBits_def, Ideal.ofBits_zero_f32]
  simp only [Fin.sum_univ_castSucc, Finset.univ_eq_empty, Finset.sum_empty]
  rfl

end Cert.KernelTable

end
-- ==== Proof.KernelTable.lean ====
/-
  The region's output array is the pair table.

  The grid has eight points. Point t stages rows 128 t .. 128 t + 127 of the source-side node table A (all 64 columns),
  the whole of Bt, b1, w2 and b2, and writes back rows 128 t .. 128 t + 127 of the output (all 1024 columns). What it
  stores at entry (p, q) of its block is sum_k max(A[128 t + p, k] + Bt[k, q] + b1[k], 0) * w2[k] + b2[0], which is entry
  (128 t + p, q) of the pair table; so every point writes its block of ONE function of the staged arrays, the eight row
  bands cover the 1024 rows (row r lies in the band of point r / 128), and the array ends holding the pair table.
-/
import proofs.«421895_j87299505258630_3_alg».proof.Proof.Gen.KernelIdeal.Frame
import proofs.«421895_j87299505258630_3_alg».proof.Proof.EdgeSpec
import proofs.«421895_j87299505258630_3_alg».proof.Proof.KernelPayload
import Idealize.ShloMosaic.Lib.Pipeline.Value
import Idealize.ShloMosaic.Lib.ValueIdx

noncomputable section

namespace Cert.KernelTable

open Idealize.ShloMosaic Idealize.ShloMosaic.TcCoe Idealize.SL.Sem Idealize.ShloMosaic.ValueIdx
open Idealize.ShloMosaic.Pipeline (Dat)
open Cert.KernelIdeal Cert.KernelIdeal.Gen Cert.EdgeSpec

variable (m : (ℓ : Loc nD τ sig) → Buf (Elt Ideal) ℓ)

/-! ## Where each window's block sits, decided once over the eight points -/

/-- At point t the A window and the output window are at row block t, column block 0; every other window is at block 0. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0 ∧ win0_3.index t (0 : Fin 1) = 0 ∧ win0_4.index t (0 : Fin 1) = 0
    ∧ win0_5.index t (0 : Fin 2) = t.val ∧ win0_5.index t (1 : Fin 2) = 0 :=
  (by decide +kernel : ∀ t : Fin grid0.N, _)

/-! ## Each staged block read where the output's rectangle says -/

/-- Point t's block of A at (p, k) is A at row 128 t + p, column k. -/
theorem blockA_apply (c : Dev nD) (t : Fin cfg0.N) (p : Fin 128) (k : Fin 64) (r : Fin 1024) (hr : r.val = 128 * t.val + p.val) :
    (iblk m c 0 t : Vec Ideal S128x64 .f32) (ix2 p k) = (V m c main_v6 : S1024x64.Idx → EReal) (ix2 r k) := by
  obtain ⟨e0, e1, -⟩ := block_index t
  unfold iblk
  rw [View.read_apply]
  show V m c main_v6 _ = V m c main_v6 _
  refine congrArg (V m c main_v6) (funext fun a => Fin.ext ?_)
  match a with
  | ⟨0, _⟩ => show win0_0.index t (0 : Fin 2) * 128 + 1 * p.val = r.val; omega
  | ⟨1, _⟩ => show win0_0.index t (1 : Fin 2) * 64 + 1 * k.val = k.val; omega

/-- Point t's block of Bt is the whole of Bt. -/
theorem blockBt_apply (c : Dev nD) (t : Fin cfg0.N) (k : Fin 64) (q : Fin 1024) (s : Fin 1024) (hs : s.val = q.val) :
    (iblk m c 1 t : Vec Ideal S64x1024 .f32) (ix2 k q) = (V m c main_v10 : S64x1024.Idx → EReal) (ix2 k s) := by
  obtain ⟨-, -, e2, e3, -⟩ := block_index t
  unfold iblk
  rw [View.read_apply]
  show V m c main_v10 _ = V m c main_v10 _
  refine congrArg (V m c main_v10) (funext fun a => Fin.ext ?_)
  match a with
  | ⟨0, _⟩ => show win0_1.index t (0 : Fin 2) * 64 + 1 * k.val = k.val; omega
  | ⟨1, _⟩ => show win0_1.index t (1 : Fin 2) * 1024 + 1 * q.val = s.val; omega

/-- Point t's block of b1 is the whole of b1. -/
theorem blockB1_apply (c : Dev nD) (t : Fin cfg0.N) (k : Fin 64) :
    (iblk m c 2 t : Vec Ideal S64 .f32) (ix1 k) = (V m c main_arg4 : S64.Idx → EReal) (ix1 k) := by
  obtain ⟨-, -, -, -, e4, -⟩ := block_index t
  unfold iblk
  rw [View.read_apply]
  show V m c main_arg4 _ = V m c main_arg4 _
  refine congrArg (V m c main_arg4) (funext fun a => Fin.ext ?_)
  match a with
  | ⟨0, _⟩ => show win0_2.index t (0 : Fin 1) * 64 + 1 * k.val = k.val; omega

/-- Point t's block of w2 is the whole of w2. -/
theorem blockW2_apply (c : Dev nD) (t : Fin cfg0.N) (k : Fin 64) :
    (iblk m c 3 t : Vec Ideal S64 .f32) (ix1 k) = (V m c main_v11 : S64.Idx → EReal) (ix1 k) := by
  obtain ⟨-, -, -, -, -, e5, -⟩ := block_index t
  unfold iblk
  rw [View.read_apply]
  show V m c main_v11 _ = V m c main_v11 _
  refine congrArg (V m c main_v11) (funext fun a => Fin.ext ?_)
  match a with
  | ⟨0, _⟩ => show win0_3.index t (0 : Fin 1) * 64 + 1 * k.val = k.val; omega

/-- Point t's block of b2 is the whole of b2. -/
theorem blockB2_apply (c : Dev nD) (t : Fin cfg0.N) (u : Fin 1) :
    (iblk m c 4 t : Vec Ideal S1 .f32) (ix1 u) = (V m c main_arg6 : S1.Idx → EReal) (ix1 u) := by
  obtain ⟨-, -, -, -, -, -, e6, -⟩ := block_index t
  unfold iblk
  rw [View.read_apply]
  show V m c main_arg6 _ = V m c main_arg6 _
  refine congrArg (V m c main_arg6) (funext fun a => Fin.ext ?_)
  match a with
  | ⟨0, _⟩ => show win0_4.index t (0 : Fin 1) * 1 + 1 * u.val = u.val; omega

/-! ## What a point writes back -/

/-- The pair table of the five arrays as the region finds them. -/
abbrev table (c : Dev nD) : Mat 1024 1024 :=
  pairTable (V m c main_v6) (V m c main_v10) (V m c main_arg4) (V m c main_v11) (V m c main_arg6)

/-- WHAT POINT t WRITES BACK is rows 128 t .. 128 t + 127 of the pair table. -/
theorem flushed_eq (c : Dev nD) (t : Fin cfg0.N) :
    (dats (F := Ideal) m 0 c).flushed 5 t = ((cfg0.win 5).blk t).view.read (Elt Ideal) (table m c) := by
  show (cfg0.win 5).cut (grid0.coords t) ((dats m 0 c).after 5 t) = _
  rw [after0_5]
  funext j
  obtain ⟨p, q, rfl⟩ : ∃ (p : Fin 128) (q : Fin 1024), j = ix2 p q := ⟨j 0, j 1, eq_ix2 j⟩
  obtain ⟨-, -, -, -, -, -, -, e7, e8⟩ := block_index t
  refine (stored_apply (iblk m c 0 t) (iblk m c 1 t) (iblk m c 2 t) (iblk m c 3 t) (iblk m c 4 t) p q).trans ?_
  rw [View.read_apply]
  have hi0 : ((((cfg0.win 5).blk t).view.emb (ix2 p q)) 0).val = 128 * t.val + p.val := by
    show win0_5.index t (0 : Fin 2) * 128 + 1 * p.val = _; omega
  have hi1 : ((((cfg0.win 5).blk t).view.emb (ix2 p q)) 1).val = q.val := by
    show win0_5.index t (1 : Fin 2) * 1024 + 1 * q.val = _; omega
  show _ = (∑ k : Fin 64, unitTerm (V m c main_v6) (V m c main_v10) (V m c main_arg4) (V m c main_v11)
      ((((cfg0.win 5).blk t).view.emb (ix2 p q)) 0) ((((cfg0.win 5).blk t).view.emb (ix2 p q)) 1) k)
    + V m c main_arg6 (ix1 (0 : Fin 1))
  refine congrArg₂ (· + ·) (Finset.sum_congr rfl fun k _ => ?_) (blockB2_apply m c t 0)
  exact congrArg₂ (· * ·)
    (congrArg (max · 0) (congrArg₂ (· + ·)
      (congrArg₂ (· + ·) (blockA_apply m c t p k _ hi0) (blockBt_apply m c t k q _ hi1)) (blockB1_apply m c t k)))
    (blockW2_apply m c t k)

/-! ## The eight row bands cover the table -/

/-- An index of the table is in point t's block iff each coordinate is in the block's range on its axis. -/
theorem mem_block (t : Fin cfg0.N) (i : S1024x1024.Idx) :
    i ∈ ((cfg0.win 5).blk t).view.set ↔ ∀ a : Fin 2, win0_5.index t a * S128x1024.size a ≤ (i a).val
      ∧ (i a).val < win0_5.index t a * S128x1024.size a + S128x1024.size a := by
  show i ∈ ((View.whole main_v12).slice (win0_5.rect t)).set ↔ _
  rw [View.set_slice_whole, Rect.mem_set_unit]
  exact Iff.rfl

/-- Row r of the table lies in the band of point r / 128, and every point writes its band back. -/
theorem covered (i : S1024x1024.Idx) :
    ∃ t : Fin cfg0.N, (cfg0.win 5).flush t = true ∧ i ∈ ((cfg0.win 5).blk t).view.set := by
  have h0 : (i 0).val < 1024 := (i 0).isLt
  have h1 : (i 1).val < 1024 := (i 1).isLt
  have hN : cfg0.N = 8 := N_0
  obtain ⟨t, ht⟩ : ∃ t : Fin cfg0.N, t.val = (i 0).val / 128 := ⟨⟨(i 0).val / 128, by rw [hN]; omega⟩, rfl⟩
  obtain ⟨-, -, -, -, -, -, -, e7, e8⟩ := block_index t
  refine ⟨t, flush0_5 t, ?_⟩
  rw [mem_block]
  intro a
  match a with
  | ⟨0, _⟩ =>
    show win0_5.index t (0 : Fin 2) * 128 ≤ (i 0).val ∧ (i 0).val < win0_5.index t (0 : Fin 2) * 128 + 128
    omega
  | ⟨1, _⟩ =>
    show win0_5.index t (1 : Fin 2) * 1024 ≤ (i 1).val ∧ (i 1).val < win0_5.index t (1 : Fin 2) * 1024 + 1024
    omega

/-! ## The array after the run -/

/-- THE REGION'S OUTPUT ARRAY after the last point is the pair table of the five staged arrays. -/
theorem table_final (c : Dev nD) :
    (dats (F := Ideal) m 0 c).arrAt 5 cfg0.N
      = pairTable (V m c main_v6) (V m c main_v10) (V m c main_arg4) (V m c main_v11) (V m c main_arg6) :=
  (dats m 0 c).arrAt_eq_of_cover 5 (table m c) (fun t _ => flushed_eq m c t) covered

end Cert.KernelTable

end
-- ==== Proof.EdgeWord.lean ====
/-
  Signed 32-bit arithmetic on node numbers.

  Two node numbers 0 ≤ s, d < 1024 held in 32-bit words give the flat position s * 1024 + d of the pair in a
  row-major 1024 × 1024 table. Read as integers, the product and the sum stay below 2^20, far inside the signed
  range, so the words compute the integers' s * 1024 + d with no wrap-around. A position in [0, 2^20) is not
  negative (the wrap of a negative index by the table's length is not taken), passes the bounds test
  0 ≤ · ≤ 2^20 - 1, and is left alone by the clamp into [0, 2^20 - 1].
-/
import proofs.«421895_j87299505258630_3_alg».proof.Proof.EdgeSpec
import Idealize.ShloMosaic.Lib.WordArith
import Idealize.ShloMosaic.Lib.Affine
import Idealize.ShloMosaic.Lib.ValueIdx
import Idealize.ShloMosaic.PureOps.Reduce

namespace Cert.EdgeWord

open Idealize.ShloMosaic Idealize.ShloMosaic.ValueIdx Cert.EdgeSpec

/-- The word 0 reads signed as 0. -/
theorem toInt_zero : (0#32 : BitVec 32).toInt = 0 := by decide
/-- The word 1024 reads signed as 1024. -/
theorem toInt_1024 : (1024#32 : BitVec 32).toInt = 1024 := by decide
/-- The word 2^20 - 1 reads signed as itself. -/
theorem toInt_last : (1048575#32 : BitVec 32).toInt = 1048575 := by decide

/-- The flat position of a pair of node numbers, computed in 32-bit words, is the integers' s * 1024 + d. -/
theorem toInt_flat (s d : BitVec 32) (hs0 : 0 ≤ s.toInt) (hs1 : s.toInt < 1024) (hd0 : 0 ≤ d.toInt) (hd1 : d.toInt < 1024) :
    (IntOp.addi (IntOp.muli s 1024#32) d).toInt = s.toInt * 1024 + d.toInt := by
  have hm : (s * 1024#32).toInt = s.toInt * 1024 := by
    rw [WordArith.toInt_mul_of_bounds s 1024#32 (by rw [toInt_1024]; omega) (by rw [toInt_1024]; omega), toInt_1024]
  show ((s * 1024#32) + d).toInt = _
  rw [WordArith.toInt_add_of_bounds _ _ (by rw [hm]; omega) (by rw [hm]; omega), hm]

/-- A word that is not negative is kept by "if w < 0 then w + 2^20 else w". -/
theorem select_of_nonneg (w : BitVec 32) (h0 : 0 ≤ w.toInt) :
    Scalar.select (IntOp.cmpi .slt w 0#32) (IntOp.addi w 1048576#32) w = w := by
  have hne : ¬ IntOp.cmpi .slt w 0#32 = 1#1 := fun h => by
    have := IntOp.cmpi_slt.1 h
    rw [toInt_zero] at this
    omega
  rw [eq_zero_of_ne_one hne]
  exact select_zero _ _

/-- A word in [0, 2^20) passes the bounds test 0 ≤ w and w ≤ 2^20 - 1. -/
theorem inBounds_of_range (w : BitVec 32) (h0 : 0 ≤ w.toInt) (h1 : w.toInt < 1048576) :
    IntOp.andi (IntOp.cmpi .sge w 0#32) (IntOp.cmpi .sle w 1048575#32) = 1#1 :=
  IntOp.andi_eq_one.2 ⟨IntOp.cmpi_sge.2 (by rw [toInt_zero]; exact h0), IntOp.cmpi_sle.2 (by rw [toInt_last]; omega)⟩

/-- A word in [0, 1024) names the node of its own value. -/
theorem node_val (w : BitVec 32) (h0 : 0 ≤ w.toInt) (h1 : w.toInt < 1024) : ((node w).val : ℤ) = w.toInt := by
  show ((min w.toInt.toNat 1023 : ℕ) : ℤ) = w.toInt
  omega

/-- The flat position of a pair of node numbers, clamped into the table, is the row-major position of the
    pair of nodes they name. -/
theorem clamp_flat (s d : BitVec 32) (hs0 : 0 ≤ s.toInt) (hs1 : s.toInt < 1024) (hd0 : 0 ≤ d.toInt) (hd1 : d.toInt < 1024) :
    min (IntOp.addi (IntOp.muli s 1024#32) d).toInt.toNat (1048576 - 1) = (node s).val * 1024 + (node d).val := by
  have hf := toInt_flat s d hs0 hs1 hd0 hd1
  have hs := node_val s hs0 hs1
  have hd := node_val d hd0 hd1
  omega

/-- A left fold by "and", started at 1, over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    have e : IntOp.andi 1#1 (f a) = 1#1 := by rw [hf a]; decide
    rw [List.foldl_cons, e]
    exact foldl_andi_one f hf l

/-- An "and"-reduction along any axes, started at 1, of an array whose every entry is 1 is 1 at every index. -/
theorem reduce_andi_of_all {s t u : Shape} {axes : List (Fin s.rank)} (x : s.Idx → BitVec 1) (init : u.Idx → BitVec 1)
    (h : s.ReducesTo axes t) (hu : 0 < u.numel) (j : t.Idx) (hx : ∀ i, x i = 1#1)
    (hi : init (Shape.Idx.first hu) = 1#1) : Host.reduce IntOp.andi x init h hu j = 1#1 := by
  rw [Host.reduce_eq_foldl, hi]
  exact foldl_andi_one x hx _

end Cert.EdgeWord
-- ==== Proof.TakeRead.lean ====
/-
  Reading a flat table at the positions of the edges.

  Two pure functions of arrays, and what they hold at an index.

  flatIdx E: for each edge e the 32-bit word E[0, e] * 1024 + E[1, e], the row-major position of the pair
  (source, destination) in a 1024 × 1024 table laid out as one vector of 2^20 entries.

  takeFn flat idx: the bounds-checked read of the vector flat at the position words idx. A negative word is first
  wrapped by the length 2^20; a word outside [0, 2^20 - 1] after that yields a NaN; every other word w yields
  flat[w], the read itself clamping w into [0, 2^20 - 1].

  When every word of idx lies in [0, 2^20), none of the three corrections acts: the wrap is not taken, the
  bounds test holds at every entry, and the clamp is the identity. So takeFn flat idx is flat at idx. When the
  words are the positions of pairs of node numbers, flat is a 1024 × 1024 table read row-major, and the result
  is reshaped back to 1024 × 1024, entry (r, c) of the result is the table at the pair of nodes of edge 1024 r + c.
-/
import proofs.«421895_j87299505258630_3_alg».proof.Proof.Gen.KernelIdeal
import proofs.«421895_j87299505258630_3_alg».proof.Proof.EdgeSpec
import proofs.«421895_j87299505258630_3_alg».proof.Proof.EdgeWord
import Idealize.ShloMosaic.Lib.ValueIdx
import Idealize.ShloMosaic.Lib.Pipeline.Value
import Idealize.ShloMosaic.Lib.StableHlo.Predicate
import Idealize.ShloMosaic.Lib.SortFacts

noncomputable section

open Idealize.ShloMosaic Idealize.ShloMosaic.ValueIdx Cert.EdgeSpec
open Idealize.ShloMosaic.StableHlo.Predicate (ixP bcast_col1 gather_take)

namespace Cert.KernelTable.Take
open Cert.KernelIdeal Cert.KernelIdeal.Gen

/-! ## The two functions -/

/-- The position word of every edge: source * 1024 + destination, in 32-bit words. -/
def flatIdx (E : IVec S2x1048576 32) : IVec S1048576 32 :=
  addi
    (muli
      (shapeCast S1048576 (extractStridedSlice S1x1048576 ![0, 0] E slices_S2x1048576_S1x1048576_0_0) shapeCasts_S1x1048576_S1048576)
      (broadcastInDim S1048576 ![] bcast_S_S1048576 (constantI S_ 32 1024#32)))
    (shapeCast S1048576 (extractStridedSlice S1x1048576 ![1, 0] E slices_S2x1048576_S1x1048576_1_0) shapeCasts_S1x1048576_S1048576)

/-- A position word with a negative one wrapped by the length 2^20. -/
def wrapIdx (idx : IVec S1048576 32) : IVec S1048576 32 :=
  select (cmpi .slt idx (broadcastInDim S1048576 ![] bcast_S_S1048576 (constantI S_ 32 0#32)))
    (addi idx (broadcastInDim S1048576 ![] bcast_S_S1048576 (constantI S_ 32 1048576#32))) idx

/-- The wrapped position words as a column. -/
def idxCol (idx : IVec S1048576 32) : IVec S1048576x1 32 :=
  broadcastInDim S1048576x1 ![0] bcast_S1048576_S1048576x1_0 (wrapIdx idx)

/-- The bounds test 0 ≤ w ≤ 2^20 - 1 of each wrapped position word, reduced by "and" over the column's unit axis. -/
def inBounds (idx : IVec S1048576 32) : IVec S1048576 1 :=
  Host.reduce IntOp.andi
    (andi
      (cmpi .sge (idxCol idx) (broadcastInDim S1048576x1 ![] bcast_S_S1048576x1 (constantI S_ 32 0#32)))
      (cmpi .sle (idxCol idx)
        (broadcastInDim S1048576x1 ![0, 1] bcast_S1x1_S1048576x1_0_1
          (broadcastInDim S1x1 ![1] bcast_S1_S1x1_1 (constantI S1 32 1048575#32)))))
    (constantI S_ 1 1#1) reducesTo_S1048576x1_S1048576_d1 h_S_

/-- The bounds-checked read of a vector at position words: a NaN where the test fails. -/
def takeFn (flat : FVec Ideal S1048576 .f32) (idx : IVec S1048576 32) : FVec Ideal S1048576 .f32 :=
  select (inBounds idx)
    (Host.gather gather_S1048576_S1048576x1_S1048576_n_0_n_n_0_1_1 flat (idxCol idx))
    (broadcastInDim S1048576 ![] bcast_S_S1048576 (constant (F := Ideal) S_ .f32 0x7FC00000#32))

/-! ## The position word at an edge -/

/-- Row r of the edge list, cut out and flattened, holds at e the entry (r, e). -/
theorem row_apply (E : IVec S2x1048576 32) (r : Fin 2) (off : Fin 2 → ℕ) (h0 : off 0 = r.val) (h1 : off 1 = 0)
    (hs : S2x1048576.Slices off S1x1048576) (hc : S1x1048576.ShapeCasts S1048576) (e : Fin 1048576) :
    shapeCast S1048576 (extractStridedSlice S1x1048576 off E hs) hc (Shape.Idx.ofFin e) = E (ix2 r e) := by
  refine (shapeCast_apply _ hc (Shape.Idx.ofFin e) (ix2 (0 : Fin 1) e) ?_).trans ?_
  · rw [Shape.rowMajor_val_two, Shape.rowMajor_val_one]
    show (0 : ℕ) * 1048576 + e.val = e.val
    omega
  · refine extractStridedSlice_apply off E hs (ix2 (0 : Fin 1) e) (ix2 r e) fun a => ?_
    match a with
    | ⟨0, _⟩ => show r.val = off 0 + 0; omega
    | ⟨1, _⟩ => show e.val = off 1 + e.val; omega

/-- The position word of edge e. -/
theorem flatIdx_apply (E : IVec S2x1048576 32) (e : Fin 1048576) :
    flatIdx E (Shape.Idx.ofFin e) = IntOp.addi (IntOp.muli (E (ix2 (0 : Fin 2) e)) 1024#32) (E (ix2 (1 : Fin 2) e)) := by
  unfold flatIdx
  show IntOp.addi (IntOp.muli (shapeCast S1048576 _ _ (Shape.Idx.ofFin e)) 1024#32) (shapeCast S1048576 _ _ (Shape.Idx.ofFin e)) = _
  rw [row_apply E 0 ![0, 0] rfl rfl, row_apply E 1 ![1, 0] rfl rfl]

/-- Under the range hypothesis the position word of edge e lies in [0, 2^20). -/
theorem flatIdx_range (E : Edges) (hr : InRange E) (e : Fin 1048576) :
    0 ≤ (flatIdx E (Shape.Idx.ofFin e)).toInt ∧ (flatIdx E (Shape.Idx.ofFin e)).toInt < 1048576 := by
  have hs := hr (ix2 (0 : Fin 2) e)
  have hd := hr (ix2 (1 : Fin 2) e)
  rw [flatIdx_apply, EdgeWord.toInt_flat _ _ hs.1 hs.2 hd.1 hd.2]
  omega

/-! ## The read at in-range position words -/

section InRangeWords
variable (idx : IVec S1048576 32)
  (h : ∀ p : Fin 1048576, 0 ≤ (idx (Shape.Idx.ofFin p)).toInt ∧ (idx (Shape.Idx.ofFin p)).toInt < 1048576)
include h

/-- No word is negative, so the wrap is never taken. -/
theorem wrapIdx_eq : wrapIdx idx = idx := by
  funext j
  obtain ⟨p, rfl⟩ : ∃ p, j = Shape.Idx.ofFin p := ⟨j 0, Shape.Idx.eq_ofFin j⟩
  exact EdgeWord.select_of_nonneg _ (h p).1

/-- Row q of the column holds the word at q. -/
theorem idxCol_apply (q : Fin 1048576) : idxCol idx (ixP q) = idx (Shape.Idx.ofFin q) := by
  unfold idxCol
  rw [bcast_col1, wrapIdx_eq idx h]

/-- Every word passes the bounds test. -/
theorem inBounds_eq_one (j : S1048576.Idx) : inBounds idx j = 1#1 := by
  unfold inBounds
  refine EdgeWord.reduce_andi_of_all _ _ _ _ j (fun i => ?_) rfl
  -- an index of the column is a row q and the unit coordinate 0
  obtain ⟨q, rfl⟩ : ∃ q : Fin 1048576, i = ixP q := ⟨i 0, by
    funext a
    match a with
    | ⟨0, _⟩ => rfl
    | ⟨1, _⟩ =>
      have h1 := idx2_lt1 i
      exact Fin.ext (by show (i 1).val = 0; omega)⟩
  show IntOp.andi (IntOp.cmpi .sge (idxCol idx (ixP q)) 0#32) (IntOp.cmpi .sle (idxCol idx (ixP q)) 1048575#32) = 1#1
  rw [idxCol_apply idx h]
  exact EdgeWord.inBounds_of_range _ (h q).1 (h q).2

/-- The bounds-checked read at p is the vector at the word at p, clamped into [0, 2^20 - 1]. -/
theorem takeFn_apply (flat : FVec Ideal S1048576 .f32) (p : Fin 1048576) :
    takeFn flat idx (Shape.Idx.ofFin p)
      = flat (Shape.Idx.ofFin ⟨min (idx (Shape.Idx.ofFin p)).toInt.toNat (1048576 - 1), by omega⟩) := by
  unfold takeFn
  show Scalar.select (inBounds idx (Shape.Idx.ofFin p)) (Host.gather _ flat (idxCol idx) (Shape.Idx.ofFin p)) _ = _
  rw [inBounds_eq_one idx h, select_one,
    gather_take gather_S1048576_S1048576x1_S1048576_n_0_n_n_0_1_1 rfl rfl rfl rfl flat (idxCol idx) p (by omega)]
  simp only [idxCol_apply idx h]

end InRangeWords

/-! ## The table at the endpoints of each edge -/

/-- A 1024 × 1024 table flattened row-major, read at the position words of the edges, and reshaped back to
    1024 × 1024 holds at entry i the table at (source, destination) of the edge scored there. -/
theorem tail_apply (T : Mat 1024 1024) (E : Edges) (hr : InRange E) (i : S1024x1024.Idx) :
    shapeCast S1024x1024 (takeFn (shapeCast S1048576 T shapeCasts_S1024x1024_S1048576) (flatIdx E)) shapeCasts_S1048576_S1024x1024 i
      = T (ix2 (srcAt E i) (dstAt E i)) := by
  -- entry i of the reshaped result is entry 1024 r + c of the vector
  refine (shapeCast_apply _ shapeCasts_S1048576_S1024x1024 i (Shape.Idx.ofFin (edgeOf i)) ?_).trans ?_
  · rw [Shape.rowMajor_val_one, Shape.rowMajor_val_two]
    rfl
  -- the read there is the flattened table at the clamped position word
  rw [takeFn_apply (flatIdx E) (flatIdx_range E hr) _ (edgeOf i)]
  -- and the flattened table at s * 1024 + d is the table at (s, d)
  refine shapeCast_apply T shapeCasts_S1024x1024_S1048576 _ (ix2 (srcAt E i) (dstAt E i)) ?_
  rw [Shape.rowMajor_val_two, Shape.rowMajor_val_one]
  have hs := hr (ix2 (0 : Fin 2) (edgeOf i))
  have hd := hr (ix2 (1 : Fin 2) (edgeOf i))
  show (srcAt E i).val * 1024 + (dstAt E i).val = min (flatIdx E (Shape.Idx.ofFin (edgeOf i))).toInt.toNat (1048576 - 1)
  rw [flatIdx_apply]
  exact (EdgeWord.clamp_flat _ _ hs.1 hs.2 hd.1 hd.2).symm

end Cert.KernelTable.Take
end
-- ==== Proof.KernelTake.lean ====
/-
  The lines after the region gather the pair table at the endpoints of each edge.

  After the region the program runs three stretches of array operations. The first forms, for every edge, the
  position word source * 1024 + destination, and flattens the region's 1024 × 1024 table row-major into one vector.
  The second is a bounds-checked read of that vector at those words. The third reshapes the 2^20 results back to
  1024 × 1024. Each stretch is a pure function of the contents it starts from, so the three compose; the table
  they start from is the region's output array, and the edge list is as launched because nothing writes it.
  With every endpoint a node number, entry i of the result is the table at (source, destination) of the edge
  scored at i.
-/
import proofs.«421895_j87299505258630_3_alg».proof.Defs
import proofs.«421895_j87299505258630_3_alg».proof.Proof.Gen.KernelIdeal.Frame
import proofs.«421895_j87299505258630_3_alg».proof.Proof.EdgeSpec
import proofs.«421895_j87299505258630_3_alg».proof.Proof.TakeRead

noncomputable section

open Idealize.ShloMosaic Idealize.ShloMosaic.TcCoe Idealize.SL.Sem Idealize.ShloMosaic.ValueIdx Cert.EdgeSpec

namespace Cert.KernelTable
open Cert.KernelIdeal Cert.KernelIdeal.Gen
variable (m : (ℓ : Loc nD τ sig) → Buf (Elt Ideal) ℓ)

namespace Take

/-! ## The three stretches, each from any contents -/

/-- The first stretch leaves the position words of the edge list it finds. -/
theorem stretch1_idx (W : Valuation τ sig (Elt Ideal)) :
    StableHlo.after (hostOps1 (F := Ideal)) W (Proc.devRef .tc main_v19) = flatIdx (W (Proc.devRef .tc main_arg2)) := by
  open StableHlo in after_results
  rfl

/-- The first stretch leaves the table it finds, flattened row-major. -/
theorem stretch1_flat (W : Valuation τ sig (Elt Ideal)) :
    StableHlo.after (hostOps1 (F := Ideal)) W (Proc.devRef .tc main_v20)
      = shapeCast S1048576 (W (Proc.devRef .tc main_v12)) shapeCasts_S1024x1024_S1048576 := by
  open StableHlo in after_results
  rfl

/-- A value carried to the type of the buffer that holds it, and back, is itself. -/
theorem ofBuf_toBuf {T : BufTy} (x : StableHlo.TRef sig T) (v : T.Contents (Elt Ideal)) : x.ofBuf (x.toBuf v) = v := by
  show cast _ (cast _ v) = v
  rw [cast_cast, cast_eq]

set_option maxRecDepth 8192 in
set_option maxHeartbeats 1000000 in
/-- The second stretch leaves the bounds-checked read of the vector it finds at the words it finds. Each value
    of the stretch is carried at its own type; a buffer's type is that of the value it holds, so every transport
    between the two is the identity. -/
theorem stretch2 (W : Valuation τ sig (Elt Ideal)) :
    StableHlo.after (hostOps1_1 (F := Ideal)) W (Proc.devRef .tc main_v21)
      = takeFn (W (Proc.devRef .tc main_v20)) (W (Proc.devRef .tc main_v19)) := by
  -- the two operands read at their own types
  have e20 : (StableHlo.TRef.of main_v20 : StableHlo.TRef sig ⟨S1048576, .f32⟩).ofBuf (W (Proc.devRef .tc main_v20))
      = W (Proc.devRef .tc main_v20) := eq_of_heq (cast_heq _ _)
  have e19 : (StableHlo.TRef.of main_v19 : StableHlo.TRef sig ⟨S1048576, .i32⟩).ofBuf (W (Proc.devRef .tc main_v19))
      = W (Proc.devRef .tc main_v19) := eq_of_heq (cast_heq _ _)
  open StableHlo in after_results_simp
  simp only [ofBuf_toBuf, e20, e19]
  -- the result stored at its buffer's type
  refine (eq_of_heq (cast_heq _ _)).trans ?_
  rfl

/-- The third stretch leaves the vector it finds, reshaped to 1024 × 1024. -/
theorem stretch3 (W : Valuation τ sig (Elt Ideal)) :
    StableHlo.after (hostOps1_2 (F := Ideal)) W (Proc.devRef .tc main_v22)
      = shapeCast S1024x1024 (W (Proc.devRef .tc main_v21)) shapeCasts_S1048576_S1024x1024 := by
  open StableHlo in after_results
  rfl

end Take
open Take

/-! ## The result -/

/-- The lines after the region gather the table at (source, destination) of each edge. -/
theorem take_result (c : Dev nD) (S : Mat 1024 1024) (hS : (dats (F := Ideal) m 0 c).arrAt 5 cfg0.N = S)
    (hr : InRange (m ((c.tc : Thread nD τ).loc main_arg2))) :
    Pipeline.afterTail₀ cfgs (dats (F := Ideal) m) 0 (V0 m) [hostOps1, hostOps1_1, hostOps1_2] c main_v22
      = fun i => S (ix2 (srcAt (m ((c.tc : Thread nD τ).loc main_arg2)) i) (dstAt (m ((c.tc : Thread nD τ).loc main_arg2)) i)) := by
  unfold Pipeline.afterTail₀
  -- the three stretches run one after the other
  simp only [List.flatten_cons, List.flatten_nil, List.append_nil]
  rw [StableHlo.after_append, StableHlo.after_append, stretch3, stretch2, stretch1_flat, stretch1_idx]
  -- what they start from: the region's output array, and the edge list as launched
  have hT := (Pipeline.withArrays_arr spec0 launch0.win.arr_inj c (V0 m c) (fun w => (dats (F := Ideal) m 0 c).arrAt w cfg0.N) 5).trans hS
  have hE := (Pipeline.withArrays_of_ne spec0 c (V0 m c) (fun w => (dats (F := Ideal) m 0 c).arrAt w cfg0.N) main_arg2
    (by exact (by decide : ∀ w, Pipeline.arrRef spec0 w ≠ main_arg2))).trans (V_main_arg2 m c)
  funext i
  refine Eq.trans ?_ (tail_apply S _ hr i)
  exact congrArg₂ (fun (T : Mat 1024 1024) (E : Edges) =>
    shapeCast S1024x1024 (takeFn (shapeCast S1048576 T shapeCasts_S1024x1024_S1048576) (flatIdx E)) shapeCasts_S1048576_S1024x1024 i) hT hE

end Cert.KernelTable
end
-- ==== Proof.ReferenceGather.lean ====
/-
  The reference's feature row, read at an index.

  Edge e has source word src[e] = edge_index[0, e] and destination word dst[e] = edge_index[1, e].  The reference
  wraps a negative word by adding 1024, gathers row "word, read signed and clamped into 0 .. 1023" of each node table,
  and lays the four gathered 64-wide rows side by side.  When every word is already a node number (0 ≤ word < 1024)
  the wrap returns the word itself, so row e of the concatenation is
      enc[s] ++ h[s] ++ enc[d] ++ h[d]        with s = node (src[e]), d = node (dst[e]):
  the feature row of the node pair (s, d).
-/
import proofs.«421895_j87299505258630_3_alg».proof.Defs
import proofs.«421895_j87299505258630_3_alg».proof.Proof.Gen.ReferenceIdeal.Run
import proofs.«421895_j87299505258630_3_alg».proof.Proof.Gen.ReferenceIdeal.Read
import proofs.«421895_j87299505258630_3_alg».proof.Proof.EdgeSpec
import Idealize.ShloMosaic.Lib.ValueIdx
import Idealize.ShloMosaic.Lib.Pipeline.Value

noncomputable section

namespace Cert.ReferenceGather

open Idealize.ShloMosaic Idealize.ShloMosaic.ValueIdx Cert.ReferenceIdeal Cert.ReferenceIdeal.Gen Cert.EdgeSpec

/-! ## One row gather, read at an index -/

/-- The row gather read at (e, j): the start-indexed, collapsed axis 0 of the table is read at the start index of edge e,
    taken signed and clamped into the 1024 rows; the offset axis 1 is read at j. -/
theorem gather_row {α : Type} (x : S1024x64.Idx → α) (idx : IVec S1048576x1 32) (e : Fin 1048576) (j : Fin 64) :
    Host.gather gather_S1024x64_S1048576x1_S1048576x64_1_0_n_n_0_1_164 x idx (ix2 e j)
      = x (ix2 (⟨min (idx (ix2 e (0 : Fin 1))).toInt.toNat 1023, by omega⟩ : Fin 1024) j) := by
  unfold Host.gather
  congr 1
  funext a
  refine Fin.ext ?_
  match a with
  | ⟨0, _⟩ =>
    -- axis 0: the clamped start index; no batching coordinate, no offset coordinate (the axis is collapsed)
    show gather_S1024x64_S1048576x1_S1048576x64_1_0_n_n_0_1_164.start (ix2 e j) idx 0
        + gather_S1024x64_S1048576x1_S1048576x64_1_0_n_n_0_1_164.batchCoord (ix2 e j) 0
        + gather_S1024x64_S1048576x1_S1048576x64_1_0_n_n_0_1_164.offCoord (ix2 e j) 0 = _
    rw [GatherDims.batchCoord_eq_zero _ _ _ (show (0 : Fin S1024x64.rank) ∉ gather_S1024x64_S1048576x1_S1048576x64_1_0_n_n_0_1_164.operandBatchingDims by decide),
      GatherDims.offCoord_eq_zero _ _ _ (show (0 : Fin S1024x64.rank) ∉ gather_S1024x64_S1048576x1_S1048576x64_1_0_n_n_0_1_164.sKept by decide)]
    unfold GatherDims.start
    rw [dif_pos (show (0 : Fin S1024x64.rank) ∈ gather_S1024x64_S1048576x1_S1048576x64_1_0_n_n_0_1_164.startIndexMap by decide)]
    have hsi : gather_S1024x64_S1048576x1_S1048576x64_1_0_n_n_0_1_164.siIdx (ix2 e j)
        ⟨List.idxOf (0 : Fin S1024x64.rank) gather_S1024x64_S1048576x1_S1048576x64_1_0_n_n_0_1_164.startIndexMap,
          List.idxOf_lt_length_iff.2 (show (0 : Fin S1024x64.rank) ∈ gather_S1024x64_S1048576x1_S1048576x64_1_0_n_n_0_1_164.startIndexMap by decide)⟩
        = ix2 e (0 : Fin 1) := by
      funext b; refine Fin.ext ?_
      match b with
      | ⟨0, _⟩ => rfl
      | ⟨1, _⟩ => rfl
    rw [hsi]
    rfl
  | ⟨1, _⟩ =>
    -- axis 1: not start-indexed, not batching; the offset coordinate is j
    show gather_S1024x64_S1048576x1_S1048576x64_1_0_n_n_0_1_164.start (ix2 e j) idx 1
        + gather_S1024x64_S1048576x1_S1048576x64_1_0_n_n_0_1_164.batchCoord (ix2 e j) 1
        + gather_S1024x64_S1048576x1_S1048576x64_1_0_n_n_0_1_164.offCoord (ix2 e j) 1 = _
    rw [GatherDims.batchCoord_eq_zero _ _ _ (show (1 : Fin S1024x64.rank) ∉ gather_S1024x64_S1048576x1_S1048576x64_1_0_n_n_0_1_164.operandBatchingDims by decide)]
    unfold GatherDims.start GatherDims.offCoord
    rw [dif_neg (show ¬ (1 : Fin S1024x64.rank) ∈ gather_S1024x64_S1048576x1_S1048576x64_1_0_n_n_0_1_164.startIndexMap by decide),
      dif_pos (show (1 : Fin S1024x64.rank) ∈ gather_S1024x64_S1048576x1_S1048576x64_1_0_n_n_0_1_164.sKept by decide)]
    show 0 + 0 + j.val = j.val
    omega

/-! ## The wrap of a non-negative word is the word -/

/-- "If the word is negative take the other value, else the word": on a word that reads non-negative, the word. -/
theorem wrap_of_nonneg (w a : BitVec 32) (h : 0 ≤ w.toInt) :
    Scalar.select (IntOp.cmpi .slt w 0#32) a w = w := by
  have hb : IntOp.cmpi .slt w 0#32 = 0#1 := by
    unfold IntOp.cmpi
    show BitVec.ofBool (w.slt 0#32) = 0#1
    have hs : w.slt 0#32 = false := by
      simp only [BitVec.slt, BitVec.toInt_zero, decide_eq_false_iff_not, not_lt]
      exact h
    rw [hs]; rfl
  rw [hb, select_zero]

/-! ## The four start-index columns at edge e -/

/-- Row 0 of the edge list, sliced and flattened, read at e. -/
theorem srcFlat (x2 : Edges) (e : Fin 1048576) :
    Read.val_main_v1 (F := Ideal) x2 (ix1 e) = x2 (ix2 (0 : Fin 2) e) := by
  rw [Read.val_main_v1_apply, Read.val_main_v0_apply]
  refine congrArg x2 (funext fun a => Fin.ext ?_)
  match a with
  | ⟨0, _⟩ => rfl
  | ⟨1, _⟩ => exact Nat.mod_eq_of_lt e.isLt

/-- Row 1 of the edge list, sliced and flattened, read at e. -/
theorem dstFlat (x2 : Edges) (e : Fin 1048576) :
    Read.val_main_v3 (F := Ideal) x2 (ix1 e) = x2 (ix2 (1 : Fin 2) e) := by
  rw [Read.val_main_v3_apply, Read.val_main_v2_apply]
  refine congrArg x2 (funext fun a => Fin.ext ?_)
  match a with
  | ⟨0, _⟩ => rfl
  | ⟨1, _⟩ => exact Nat.mod_eq_of_lt e.isLt

/-- The column index (e, 0) of a start-index column names position e of the flat word list. -/
theorem col_v9 (e : Fin 1048576) : Read.idx_main_v9 (ix2 e (0 : Fin 1)) = ix1 e :=
  funext fun a => Fin.ext (by match a with | ⟨0, _⟩ => rfl)
theorem col_v16 (e : Fin 1048576) : Read.idx_main_v16 (ix2 e (0 : Fin 1)) = ix1 e :=
  funext fun a => Fin.ext (by match a with | ⟨0, _⟩ => rfl)
theorem col_v23 (e : Fin 1048576) : Read.idx_main_v23 (ix2 e (0 : Fin 1)) = ix1 e :=
  funext fun a => Fin.ext (by match a with | ⟨0, _⟩ => rfl)
theorem col_v30 (e : Fin 1048576) : Read.idx_main_v30 (ix2 e (0 : Fin 1)) = ix1 e :=
  funext fun a => Fin.ext (by match a with | ⟨0, _⟩ => rfl)

/-- The start index of the first gather (enc at the source) at edge e is the source word. -/
theorem start_v9 (x2 : Edges) (hr : InRange x2) (e : Fin 1048576) :
    Read.val_main_v9 (F := Ideal) x2 (ix2 e (0 : Fin 1)) = x2 (ix2 (0 : Fin 2) e) := by
  rw [Read.val_main_v9_apply, col_v9, Read.val_main_v8_apply, Read.val_main_v5_apply, Read.val_main_v4_apply,
    Read.val_main_c_apply, srcFlat]
  exact wrap_of_nonneg _ _ (hr _).1

/-- The start index of the second gather (h at the source) at edge e is the source word. -/
theorem start_v16 (x2 : Edges) (hr : InRange x2) (e : Fin 1048576) :
    Read.val_main_v16 (F := Ideal) x2 (ix2 e (0 : Fin 1)) = x2 (ix2 (0 : Fin 2) e) := by
  rw [Read.val_main_v16_apply, col_v16, Read.val_main_v15_apply, Read.val_main_v12_apply, Read.val_main_v11_apply,
    Read.val_main_c_1_apply, srcFlat]
  exact wrap_of_nonneg _ _ (hr _).1

/-- The start index of the third gather (enc at the destination) at edge e is the destination word. -/
theorem start_v23 (x2 : Edges) (hr : InRange x2) (e : Fin 1048576) :
    Read.val_main_v23 (F := Ideal) x2 (ix2 e (0 : Fin 1)) = x2 (ix2 (1 : Fin 2) e) := by
  rw [Read.val_main_v23_apply, col_v23, Read.val_main_v22_apply, Read.val_main_v19_apply, Read.val_main_v18_apply,
    Read.val_main_c_3_apply, dstFlat]
  exact wrap_of_nonneg _ _ (hr _).1

/-- The start index of the fourth gather (h at the destination) at edge e is the destination word. -/
theorem start_v30 (x2 : Edges) (hr : InRange x2) (e : Fin 1048576) :
    Read.val_main_v30 (F := Ideal) x2 (ix2 e (0 : Fin 1)) = x2 (ix2 (1 : Fin 2) e) := by
  rw [Read.val_main_v30_apply, col_v30, Read.val_main_v29_apply, Read.val_main_v26_apply, Read.val_main_v25_apply,
    Read.val_main_c_5_apply, dstFlat]
  exact wrap_of_nonneg _ _ (hr _).1

/-! ## The four gathered rows -/

theorem encSrc_apply (x0 : Mat 1024 64) (x2 : Edges) (hr : InRange x2) (e : Fin 1048576) (j : Fin 64) :
    Read.val_main_v10 (F := Ideal) x0 x2 (ix2 e j) = x0 (ix2 (node (x2 (ix2 (0 : Fin 2) e))) j) := by
  unfold Read.val_main_v10
  rw [gather_row]
  refine congrArg x0 (congrArg (ix2 · j) (Fin.ext ?_))
  show min (BitVec.toInt _).toNat 1023 = min (BitVec.toInt _).toNat 1023
  rw [start_v9 x2 hr]

theorem hSrc_apply (x1 : Mat 1024 64) (x2 : Edges) (hr : InRange x2) (e : Fin 1048576) (j : Fin 64) :
    Read.val_main_v17 (F := Ideal) x1 x2 (ix2 e j) = x1 (ix2 (node (x2 (ix2 (0 : Fin 2) e))) j) := by
  unfold Read.val_main_v17
  rw [gather_row]
  refine congrArg x1 (congrArg (ix2 · j) (Fin.ext ?_))
  show min (BitVec.toInt _).toNat 1023 = min (BitVec.toInt _).toNat 1023
  rw [start_v16 x2 hr]

theorem encDst_apply (x0 : Mat 1024 64) (x2 : Edges) (hr : InRange x2) (e : Fin 1048576) (j : Fin 64) :
    Read.val_main_v24 (F := Ideal) x0 x2 (ix2 e j) = x0 (ix2 (node (x2 (ix2 (1 : Fin 2) e))) j) := by
  unfold Read.val_main_v24
  rw [gather_row]
  refine congrArg x0 (congrArg (ix2 · j) (Fin.ext ?_))
  show min (BitVec.toInt _).toNat 1023 = min (BitVec.toInt _).toNat 1023
  rw [start_v23 x2 hr]

theorem hDst_apply (x1 : Mat 1024 64) (x2 : Edges) (hr : InRange x2) (e : Fin 1048576) (j : Fin 64) :
    Read.val_main_v31 (F := Ideal) x1 x2 (ix2 e j) = x1 (ix2 (node (x2 (ix2 (1 : Fin 2) e))) j) := by
  unfold Read.val_main_v31
  rw [gather_row]
  refine congrArg x1 (congrArg (ix2 · j) (Fin.ext ?_))
  show min (BitVec.toInt _).toNat 1023 = min (BitVec.toInt _).toNat 1023
  rw [start_v30 x2 hr]

/-! ## The four rows side by side -/

/-- Row e of the concatenation is the feature row of the edge's two nodes: column j lies in one of four 64-wide
    bands, and each band is one gathered row read at j less the band's first column. -/
theorem features_apply (x0 x1 : Mat 1024 64) (x2 : Edges) (hr : InRange x2) (e : Fin 1048576) (j : Fin 256) :
    Read.val_main_v32 (F := Ideal) x0 x1 x2 (ix2 e j)
      = feat x0 x1 (node (x2 (ix2 (0 : Fin 2) e))) (node (x2 (ix2 (1 : Fin 2) e))) j := by
  have hj := j.isLt
  unfold Read.val_main_v32 feat
  by_cases h0 : j.val < 64
  · rw [dif_pos h0]
    refine (concatenate_apply_piece (1 : Fin S1048576x256.rank) _ _ (ix2 e j) 0 (by show 0 < 4; omega) S1048576x64 _ rfl rfl 0 rfl
      (ix2 e (⟨j.val - 0, by omega⟩ : Fin 64)) ?_ ?_).trans (encSrc_apply x0 x2 hr e _)
    · intro b hb
      match b with
      | ⟨0, _⟩ => rfl
      | ⟨1, _⟩ => exact absurd rfl hb
    · show 0 + (j.val - 0) = j.val
      omega
  · rw [dif_neg h0]
    by_cases h1 : j.val < 128
    · rw [dif_pos h1]
      refine (concatenate_apply_piece (1 : Fin S1048576x256.rank) _ _ (ix2 e j) 1 (by show 1 < 4; omega) S1048576x64 _ rfl rfl 64 rfl
        (ix2 e (⟨j.val - 64, by omega⟩ : Fin 64)) ?_ ?_).trans (hSrc_apply x1 x2 hr e _)
      · intro b hb
        match b with
        | ⟨0, _⟩ => rfl
        | ⟨1, _⟩ => exact absurd rfl hb
      · show 64 + (j.val - 64) = j.val
        omega
    · rw [dif_neg h1]
      by_cases h2 : j.val < 192
      · rw [dif_pos h2]
        refine (concatenate_apply_piece (1 : Fin S1048576x256.rank) _ _ (ix2 e j) 2 (by show 2 < 4; omega) S1048576x64 _ rfl rfl 128 rfl
          (ix2 e (⟨j.val - 128, by omega⟩ : Fin 64)) ?_ ?_).trans (encDst_apply x0 x2 hr e _)
        · intro b hb
          match b with
          | ⟨0, _⟩ => rfl
          | ⟨1, _⟩ => exact absurd rfl hb
        · show 128 + (j.val - 128) = j.val
          omega
      · rw [dif_neg h2]
        refine (concatenate_apply_piece (1 : Fin S1048576x256.rank) _ _ (ix2 e j) 3 (by show 3 < 4; omega) S1048576x64 _ rfl rfl 192 rfl
          (ix2 e (⟨j.val - 192, by omega⟩ : Fin 64)) ?_ ?_).trans (hDst_apply x1 x2 hr e _)
        · intro b hb
          match b with
          | ⟨0, _⟩ => rfl
          | ⟨1, _⟩ => exact absurd rfl hb
        · show 192 + (j.val - 192) = j.val
          omega

end Cert.ReferenceGather

end
-- ==== Proof.ReferenceScore.lean ====
/-
  The reference's result read at an index: the score of edge e is the two-layer perceptron applied to the
  concatenated features of the edge's two endpoints.

  Result entry (r, c) is row e = 1024 r + c of the [1048576, 1] column of scores.  That score is
      sum_k  max(sum_j feat_j * W1[j, k] + b1[k], 0) * W2[k, 0]  +  b2[0],
  where feat is row e of the concatenation of the four gathered rows: the feature row of the node pair
  (s, d) = (node src[e], node dst[e]).  Both contraction sums are taken over the literal index ranges 0 .. 255 and
  0 .. 63, so the two sides agree term by term.
-/
import proofs.«421895_j87299505258630_3_alg».proof.Defs
import proofs.«421895_j87299505258630_3_alg».proof.Proof.Gen.ReferenceIdeal.Run
import proofs.«421895_j87299505258630_3_alg».proof.Proof.Gen.ReferenceIdeal.Read
import proofs.«421895_j87299505258630_3_alg».proof.Proof.EdgeSpec
import proofs.«421895_j87299505258630_3_alg».proof.Proof.ReferenceGather
import Idealize.ShloMosaic.Lib.ValueIdx
import Idealize.ShloMosaic.PureOps.Ideal.Laws

noncomputable section

namespace Cert.ReferenceScore

open Idealize.ShloMosaic Idealize.ShloMosaic.ValueIdx Cert.ReferenceIdeal Cert.ReferenceIdeal.Gen Cert.EdgeSpec

/-! ## Index equations: the composed index functions of the stages are the coordinate constructors -/

/-- The first layer's left operand at contraction index j: entry (e, j) of the feature rows. -/
theorem lidx33 (e : Fin 1048576) (k : Fin 64) (j : Fin 256) : Read.lidx_main_v33 (ix2 e k) j = ix2 e j :=
  funext fun a => Fin.ext (by match a with | ⟨0, _⟩ => rfl | ⟨1, _⟩ => rfl)
/-- The first layer's right operand at contraction index j: entry (j, k) of W1. -/
theorem ridx33 (e : Fin 1048576) (k : Fin 64) (j : Fin 256) : Read.ridx_main_v33 (ix2 e k) j = ix2 j k :=
  funext fun a => Fin.ext (by match a with | ⟨0, _⟩ => rfl | ⟨1, _⟩ => rfl)
/-- The first bias, broadcast over the rows, read at (e, k): entry k. -/
theorem bidx35 (e : Fin 1048576) (k : Fin 64) : Read.idx_main_v34 (Read.idx_main_v35 (ix2 e k)) = ix1 k :=
  funext fun a => Fin.ext (by match a with | ⟨0, _⟩ => rfl)
/-- The second layer's left operand at contraction index k: entry (e, k) of the hidden rows. -/
theorem lidx38 (e : Fin 1048576) (k : Fin 64) : Read.lidx_main_v38 (ix2 e (0 : Fin 1)) k = ix2 e k :=
  funext fun a => Fin.ext (by match a with | ⟨0, _⟩ => rfl | ⟨1, _⟩ => rfl)
/-- The second layer's right operand at contraction index k: entry (k, 0) of W2. -/
theorem ridx38 (e : Fin 1048576) (k : Fin 64) : Read.ridx_main_v38 (ix2 e (0 : Fin 1)) k = ix2 k (0 : Fin 1) :=
  funext fun a => Fin.ext (by match a with | ⟨0, _⟩ => rfl | ⟨1, _⟩ => rfl)
/-- The second bias, broadcast over the rows, read at (e, 0): its one entry. -/
theorem bidx40 (e : Fin 1048576) : Read.idx_main_v39 (Read.idx_main_v40 (ix2 e (0 : Fin 1))) = ix1 (0 : Fin 1) :=
  funext fun a => Fin.ext (by match a with | ⟨0, _⟩ => rfl)
/-- Result entry i is row (edge of i) of the score column. -/
theorem ridx42 (i : S1024x1024.Idx) : Read.idx_main_v42 i = ix2 (edgeOf i) (0 : Fin 1) :=
  funext fun a => Fin.ext (by match a with | ⟨0, _⟩ => exact Nat.div_one _ | ⟨1, _⟩ => rfl)

/-! ## The hidden layer at (e, k) -/

/-- Hidden unit k of edge e: the rectified first layer on the edge's feature row. -/
theorem hidden_apply (x0 x1 : Mat 1024 64) (x2 : Edges) (x3 : Mat 256 64) (x4 : Vect 64) (hr : InRange x2)
    (e : Fin 1048576) (k : Fin 64) :
    Read.val_main_v37 (F := Ideal) x0 x1 x2 x3 x4 (ix2 e k)
      = max ((∑ j : Fin 256, feat x0 x1 (node (x2 (ix2 (0 : Fin 2) e))) (node (x2 (ix2 (1 : Fin 2) e))) j * x3 (ix2 j k))
          + x4 (ix1 k)) 0 := by
  rw [Read.val_main_v37_apply, Read.val_main_v36_apply, Read.val_main_v33_apply, Read.val_main_v35_apply,
    Read.val_main_v34_apply, Read.val_main_call0_v0_apply, Read.val_main_call0_cst_apply]
  simp only [lidx33, ridx33, bidx35, Cert.ReferenceGather.features_apply x0 x1 x2 hr, Ideal.maximumf_def, Ideal.addf_def,
    Ideal.ofBits_def, Ideal.ofBits_zero_f32]

/-! ## The result -/

/-- The reference's result at entry i is the perceptron's score of the two endpoints of the edge scored there. -/
theorem result_apply (x0 x1 : Mat 1024 64) (x2 : Edges) (x3 : Mat 256 64) (x4 : Vect 64) (x5 : Mat 64 1) (x6 : Vect 1)
    (hr : InRange x2) (i : S1024x1024.Idx) :
    Cert.ReferenceIdeal.Read.val_main_v42 (F := Ideal) x0 x1 x2 x3 x4 x5 x6 i
      = mlpScore x0 x1 x3 x4 x5 x6 (srcAt x2 i) (dstAt x2 i) := by
  rw [Read.val_main_v42_apply, ridx42, Read.val_main_v41_apply, Read.val_main_v38_apply, Read.val_main_v40_apply,
    Read.val_main_v39_apply]
  simp only [lidx38, ridx38, bidx40, hidden_apply x0 x1 x2 x3 x4 hr, Ideal.addf_def]
  rfl

end Cert.ReferenceScore

end
-- ==== Proof.lean ====
/-
  The certificate of the edge-scoring kernel against its reference, over the extended reals.

  Both programs score each of the 1,048,576 edges (s, d) of a graph on 1024 nodes by a two-layer perceptron of the
  four 64-wide feature rows enc[s], h[s], enc[d], h[d]. The reference gathers the four rows, lays them side by side
  and applies the two layers. The kernel program uses that the 256 rows of the first layer's weights are four bands
  of 64, one per feature row: the first layer's sum over 256 features is A[s, k] + Bt[k, d] for two per-node tables
  that host code computes before the kernel; the kernel fills the whole 1024 x 1024 table of scores of node pairs,
  128 rows per grid point; host code after the kernel reads the table at position 1024 s + d for each edge. With
  every endpoint a node number, 0 <= . < 1024 (the precondition), that position is entry (s, d) of the table and
  the reference's row gathers read rows s and d, so the two results agree entry by entry. The law that joins them,
  a finite sum regrouped into four bands, needs no finiteness of the inputs.

  The kernel's and the idealized kernel's frames are the generated ones; the reference's frame is its generated run
  with the result dropped; nothing was rewritten by the ideal pass, so the idealization conjunct is trivial.
-/
import proofs.«421895_j87299505258630_3_alg».proof.Defs
import proofs.«421895_j87299505258630_3_alg».proof.Proof.Gen.Kernel
import proofs.«421895_j87299505258630_3_alg».proof.Proof.Gen.Kernel.Skeleton
import proofs.«421895_j87299505258630_3_alg».proof.Proof.Gen.Kernel.Launch
import proofs.«421895_j87299505258630_3_alg».proof.Proof.Gen.Kernel.Points
import proofs.«421895_j87299505258630_3_alg».proof.Proof.Gen.Kernel.Frame
import proofs.«421895_j87299505258630_3_alg».proof.Proof.Gen.KernelIdeal
import proofs.«421895_j87299505258630_3_alg».proof.Proof.Gen.KernelIdeal.Skeleton
import proofs.«421895_j87299505258630_3_alg».proof.Proof.Gen.KernelIdeal.Launch
import proofs.«421895_j87299505258630_3_alg».proof.Proof.Gen.KernelIdeal.Points
import proofs.«421895_j87299505258630_3_alg».proof.Proof.Gen.KernelIdeal.Frame
import proofs.«421895_j87299505258630_3_alg».proof.Proof.Gen.ReferenceIdeal
import proofs.«421895_j87299505258630_3_alg».proof.Proof.Gen.ReferenceIdeal.Run
import proofs.«421895_j87299505258630_3_alg».proof.Proof.Gen.ReferenceIdeal.Read
import proofs.«421895_j87299505258630_3_alg».proof.Proof.Gen.Pre_finite_inputs
import proofs.«421895_j87299505258630_3_alg».proof.Proof.EdgeSpec
import proofs.«421895_j87299505258630_3_alg».proof.Proof.EdgeRange
import proofs.«421895_j87299505258630_3_alg».proof.Proof.KernelPrefix
import proofs.«421895_j87299505258630_3_alg».proof.Proof.KernelTable
import proofs.«421895_j87299505258630_3_alg».proof.Proof.KernelTake
import proofs.«421895_j87299505258630_3_alg».proof.Proof.ReferenceScore
import Idealize.ShloMosaic.Adequacy
import Idealize.ShloMosaic.Init

noncomputable section

/-! ## The two runs end at one function of the arguments -/

namespace Cert.Proof

open Idealize.ShloMosaic Idealize.SL.Sem Cert.EdgeSpec

/-- The result both programs end with on core c: entry i is the perceptron's score of the two endpoints of the
    edge scored there. -/
def score (m : (ℓ : Loc Cert.KernelIdeal.nD Cert.KernelIdeal.τ Cert.KernelIdeal.sig) → Buf (Elt Ideal) ℓ)
    (c : Dev Cert.KernelIdeal.nD) : Mat 1024 1024 := fun i =>
  mlpScore (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (srcAt (m ((c.tc : Thread Cert.KernelIdeal.nD Cert.KernelIdeal.τ).loc Cert.KernelIdeal.main_arg2)) i)
    (dstAt (m ((c.tc : Thread Cert.KernelIdeal.nD Cert.KernelIdeal.τ).loc Cert.KernelIdeal.main_arg2)) i)

section Kernel
open Cert.KernelIdeal Cert.KernelIdeal.Gen Cert.KernelTable

/-- The kernel program's result buffer after the host tail: the pair table of the node tables, gathered at each
    edge's (source, destination), which is the perceptron's score by the law of the specification. -/
theorem kernel_result [Cert.Pre_finite_inputs.Facts] (m : (ℓ : Loc nD τ sig) → Buf (Elt Ideal) ℓ) (hpre : Cert.Pre_KernelIdeal m) (c : Dev nD) :
    Pipeline.afterTail₀ cfgs (dats (F := Ideal) m) 0 (V0 m) [hostOps1, hostOps1_1, hostOps1_2] c main_v22 = score m c := by
  rw [take_result m c _ (table_final m c) (inRange_of_pre m hpre c)]
  funext i
  rw [prefix_A, prefix_Bt, prefix_w2, V_main_arg4, V_main_arg6]
  exact (mlpScore_eq_pairTable _ _ _ _ _ _ _ _).symm

/-- The idealized kernel program runs, ends with the score in its result buffer, and leaves its arguments as they
    were. -/
theorem kernel_run [Cert.Pre_finite_inputs.Facts] (m : (ℓ : Loc nD τ sig) → Buf (Elt Ideal) ℓ) (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v22) = score m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v22 (Pipeline.mem_restRefs_of main_v22 (by decide) (by decide))).trans (kernel_result m hpre c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 2).trans (((dats m 0 c).arrAt_in 2 rfl _).trans ((A_eq m c 2).trans (V_main_arg4 m c))),
      (((h c).2 main_arg5 (Pipeline.mem_restRefs_of main_arg5 (by decide) (by decide))).trans (W_main_arg5 m (dats m) c)),
      ((h c).1 4).trans (((dats m 0 c).arrAt_in 4 rfl _).trans ((A_eq m c 4).trans (V_main_arg6 m c)))⟩) (run_main m ρ)

end Kernel

theorem frame_k : Cert.frame_Kernel (hKernel := Cert.Kernel.Gen.facts) (hPre_finite_inputs := Cert.Pre_finite_inputs.Gen.facts) :=
  fun m ρ _ => Cert.Kernel.Gen.frame m ρ
theorem frame_ki : Cert.frame_KernelIdeal (hKernelIdeal := Cert.KernelIdeal.Gen.facts) (hPre_finite_inputs := Cert.Pre_finite_inputs.Gen.facts) :=
  fun m ρ _ => Cert.KernelIdeal.Gen.frame m ρ
/-- The reference has no kernel: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs, from memories that agree on the arguments, end with the same score array: the kernel
    program by its pair table gathered at each edge, the reference by the perceptron on the gathered features; the
    endpoints are node numbers by the precondition. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  haveI := Cert.Pre_finite_inputs.Gen.facts
  refine ⟨score m, kernel_run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq]
  funext i
  have hr : InRange (m' ((c.tc : Thread Cert.ReferenceIdeal.nD Cert.ReferenceIdeal.τ).loc Cert.ReferenceIdeal.main_arg2)) := by
    rw [(hagree c).2.2.1]
    exact Cert.KernelTable.inRange_of_pre m hpre c
  rw [Cert.ReferenceScore.result_apply _ _ _ _ _ _ _ hr i]
  rw [(hagree c).1, (hagree c).2.1, (hagree c).2.2.1, (hagree c).2.2.2.1, (hagree c).2.2.2.2.1, (hagree c).2.2.2.2.2.1,
    (hagree c).2.2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
